-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x2000000 : Shape := ⟨2, ![2, 2000000]⟩
abbrev S6x128 : Shape := ⟨2, ![6, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x1 .f32) (main_arg9 : FVec F S1 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x6 .f32) (main_arg1 : IVec S2x2000000 32) (main_arg2 : FVec F S6x128 .f32) (main_arg3 : FVec F S128 .f32) (main_arg4 : FVec F S6x128 .f32) (main_arg5 : FVec F S128x128 .f32) (main_arg6 : FVec F S128 .f32) (main_arg7 : FVec F S128x128 .f32) (main_arg8 : FVec F S128x1 .f32) (main_arg9 : FVec F S1 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x128 .f32 := Host.absf main_arg2
  let main_cst_0 : FVec F S_ .f32 := constant S_ .f32 0x7F800000#32
  let main_v5 : FVec F S6x128 .f32 := broadcastInDim S6x128 ![] bcast_S_S6x128 main_cst_0
  let main_v6 : IVec S6x128 1 := cmpf .olt main_v4 main_v5
  let main_c_1 : IVec S_ 1 := constantI S_ 1 1#1
  let main_v7 : IVec S_ 1 := (fun x v => Host.reduce IntOp.andi x v reducesTo_S6x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S6x128 .f32 := Host.absf main_arg4
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg5 main_arg6 main_arg7 main_arg8 main_arg9 main_v13 main_v16
-- ==== Kernel.lean ====
abbrev S100000x6 : Shape := ⟨2, ![100000, 6]⟩
abbrev S2x2000000 : Shape := ⟨2, ![2, 2000000]⟩
abbrev S6x128 : Shape := ⟨2, ![6, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2002944 : Shape := ⟨1, ![2002944]⟩
abbrev S100000 : Shape := ⟨1, ![100000]⟩
abbrev S2002944x1 : Shape := ⟨2, ![2002944, 1]⟩
abbrev S100000x1 : Shape := ⟨2, ![100000, 1]⟩
abbrev S2002944x6 : Shape := ⟨2, ![2002944, 6]⟩
abbrev S100000x128 : Shape := ⟨2, ![100000, 128]⟩
abbrev S5000x6 : Shape := ⟨2, ![5000, 6]⟩
abbrev S5000x1 : Shape := ⟨2, ![5000, 1]⟩
abbrev S5000x128 : Shape := ⟨2, ![5000, 128]⟩
abbrev S1x128 : Shape := ⟨2, ![1, 128]⟩
abbrev S2002944x128 : Shape := ⟨2, ![2002944, 128]⟩
abbrev S1x1 : Shape := ⟨2, ![1, 1]⟩

abbrev nBuf : Space → Nat
  | .hbm => 63
  | .vmem => 24
  | .smem => 0
  | _ => 0

abbrev bufTy : (tb : Table) → Fin (tcTables nBuf tb) → BufTy
  | .hbm, ⟨0, _⟩ => ⟨S100000x6, .f32⟩
  | .hbm, ⟨1, _⟩ => ⟨S2x2000000, .i32⟩
  | .hbm, ⟨2, _⟩ => ⟨S6x128, .f32⟩
  | .hbm, ⟨3, _⟩ => ⟨S128, .f32⟩
  | .hbm, ⟨4, _⟩ => ⟨S6x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x2000000, .i32⟩
  | .hbm, ⟨11, _⟩ => ⟨S2000000, .i32⟩
  | .hbm, ⟨12, _⟩ => ⟨S1x2000000, .i32⟩
  | .hbm, ⟨13, _⟩ => ⟨S2000000, .i32⟩
  | .hbm, ⟨14, _⟩ => ⟨S_, .i32⟩
  | .hbm, ⟨15, _⟩ => ⟨S_, .i32⟩
  | .hbm, ⟨16, _⟩ => ⟨S2002944, .i32⟩
  | .hbm, ⟨17, _⟩ => ⟨S_, .i32⟩
  | .hbm, ⟨18, _⟩ => ⟨S_, .i32⟩
  | .hbm, ⟨19, _⟩ => ⟨S2002944, .i32⟩
  | .hbm, ⟨20, _⟩ => ⟨S_, .f32⟩
  | .hbm, ⟨21, _⟩ => ⟨S2002944, .f32⟩
  | .hbm, ⟨22, _⟩ => ⟨S_, .f32⟩
  | .hbm, ⟨23, _⟩ => ⟨S100000, .f32⟩
  | .hbm, ⟨24, _⟩ => ⟨S2002944x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S2002944, .i32⟩
  | .hbm, ⟨35, _⟩ => ⟨S2002944, .i1⟩
  | .hbm, ⟨36, _⟩ => ⟨S_, .i32⟩
  | .hbm, ⟨37, _⟩ => ⟨S2002944, .i32⟩
  | .hbm, ⟨38, _⟩ => ⟨S2002944, .i32⟩
  | .hbm, ⟨39, _⟩ => ⟨S2002944, .i32⟩
  | .hbm, ⟨40, _⟩ => ⟨S2002944x1, .i32⟩
  | .hbm, ⟨41, _⟩ => ⟨S2002944x6, .f32⟩
  | .hbm, ⟨42, _⟩ => ⟨S_, .f32⟩
  | .hbm, ⟨43, _⟩ => ⟨S100000x6, .f32⟩
  | .hbm, ⟨44, _⟩ => ⟨S2002944x1, .i32⟩
  | .hbm, ⟨45, _⟩ => ⟨S100000x6, .f32⟩
  | .hbm, ⟨46, _⟩ => ⟨S100000x128, .f32⟩
  | .hbm, ⟨47, _⟩ => ⟨S_, .i32⟩
  | .hbm, ⟨48, _⟩ => ⟨S2002944, .i32⟩
  | .hbm, ⟨49, _⟩ => ⟨S2002944, .i1⟩
  | .hbm, ⟨50, _⟩ => ⟨S_, .i32⟩
  | .hbm, ⟨51, _⟩ => ⟨S2002944, .i32⟩
  | .hbm, ⟨52, _⟩ => ⟨S2002944, .i32⟩
  | .hbm, ⟨53, _⟩ => ⟨S2002944, .i32⟩
  | .hbm, ⟨54, _⟩ => ⟨S2002944x1, .i32⟩
  | .hbm, ⟨55, _⟩ => ⟨S2002944x128, .f32⟩
  | .hbm, ⟨56, _⟩ => ⟨S2002944x128, .bf16⟩
  | .hbm, ⟨57, _⟩ => ⟨S2002944x128, .f32⟩
  | .hbm, ⟨58, _⟩ => ⟨S_, .f32⟩
  | .hbm, ⟨59, _⟩ => ⟨S100000x128, .f32⟩
  | .hbm, ⟨60, _⟩ => ⟨S2002944x1, .i32⟩
  | .hbm, ⟨61, _⟩ => ⟨S100000x128, .f32⟩
  | .hbm, ⟨62, _⟩ => ⟨S100000x1, .f32⟩
  | .local _ .vmem, ⟨0, _⟩ => ⟨S5000x6, .f32⟩
  | .local _ .vmem, ⟨1, _⟩ => ⟨S5000x6, .f32⟩
  | .local _ .vmem, ⟨2, _⟩ => ⟨S5000x1, .f32⟩
  | .local _ .vmem, ⟨3, _⟩ => ⟨S5000x1, .f32⟩
  | .local _ .vmem, ⟨4, _⟩ => ⟨S5000x6, .f32⟩
  | .local _ .vmem, ⟨5, _⟩ => ⟨S5000x6, .f32⟩
  | .local _ .vmem, ⟨6, _⟩ => ⟨S6x128, .f32⟩
  | .local _ .vmem, ⟨7, _⟩ => ⟨S128, .f32⟩
  | .local _ .vmem, ⟨8, _⟩ => ⟨S6x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128x1, .f32⟩
  | .local _ .vmem, ⟨21, _⟩ => ⟨S1, .f32⟩
  | .local _ .vmem, ⟨22, _⟩ => ⟨S5000x1, .f32⟩
  | .local _ .vmem, ⟨23, _⟩ => ⟨S5000x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  pads_S2000000_S2002944_029440 : S2000000.Pads (![0] : Fin 1 → Nat) ![2944] ![0] S2002944
  h_S_ : 0 < S_.numel
  bcast_S_S2002944 : S_.BroadcastsInDim S2002944 (![] : Fin 0 → Fin S2002944.rank)
  bcast_S_S100000 : S_.BroadcastsInDim S100000 (![] : Fin 0 → Fin S100000.rank)
  bcast_S2002944_S2002944x1_0 : S2002944.BroadcastsInDim S2002944x1 (![0] : Fin 1 → Fin S2002944x1.rank)
  shapeCasts_S100000_S100000x1 : S100000.ShapeCasts S100000x1
  bcast_S_S100000x6 : S_.BroadcastsInDim S100000x6 (![] : Fin 0 → Fin S100000x6.rank)
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x6 : S5000x1.Broadcasts S5000x6
  inb_S6x128_S6x128_0_0 : ∀ a, (![0, 0] : Fin 2 → Nat) a + S6x128.size a ≤ S6x128.size a
  h_S6x128 : 0 < S6x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  bcast_S_S100000x128 : S_.BroadcastsInDim S100000x128 (![] : Fin 0 → Fin S100000x128.rank)
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S100000_S2002944x1_S2002944_n_0_0_1_wf : ScatterDims.WF S100000 S2002944x1 S2002944 [] [0] [0] 1
  gather_S100000x6_S2002944x1_S2002944x6_1_0_n_n_0_1_16_wf : GatherDims.WF S100000x6 S2002944x1 S2002944x6 [1] [0] [] [0] [] 1 ![1, 6]
  scatter_S100000x6_S2002944x1_S2002944x6_1_0_0_1_wf : ScatterDims.WF S100000x6 S2002944x1 S2002944x6 [1] [0] [0] 1
  dot_S5000x6_S6x128_S5000x128_1_0_0_1_n_n_wf : DotDims.WF S5000x6 S6x128 S5000x128 [1] [0] [0] [1] [] []
  gather_S100000x128_S2002944x1_S2002944x128_1_0_n_n_0_1_1128_wf : GatherDims.WF S100000x128 S2002944x1 S2002944x128 [1] [0] [] [0] [] 1 ![1, 128]
  scatter_S100000x128_S2002944x1_S2002944x128_1_0_0_1_wf : ScatterDims.WF S100000x128 S2002944x1 S2002944x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x6.size a ≤ S100000x6.size a
  hwx0_2 : ∀ i : grid0.Coords, EltTy.bits .f32 = 32 ∨ (Rect.block (s := S100000x6) S5000x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x128.size a ≤ S6x128.size a
  hwx0_3 : ∀ i : grid0.Coords, EltTy.bits .f32 = 32 ∨ (Rect.block (s := S6x128) S6x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x128.size a ≤ S6x128.size a
  hwx0_5 : ∀ i : grid0.Coords, EltTy.bits .f32 = 32 ∨ (Rect.block (s := S6x128) S6x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .f32 = 32 ∨ (Rect.block (s := S128x1) S128x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S100000x1.size a
  hwx1_8 : ∀ i : grid1.Coords, EltTy.bits .f32 = 32 ∨ (Rect.block (s := S100000x1) S5000x1.size (cc1_transform_8 i) (hinb1_8 i)).WholeWords (EltTy.packing .f32)

variable [Facts₀]

def scatter_S100000_S2002944x1_S2002944_n_0_0_1 : ScatterDims S100000 S2002944x1 S2002944 where
  updateWindowDims := []
  insertedWindowDims := [0]
  scatterDimsToOperandDims := [0]
  indexVectorDim := 1
  wf := scatter_S100000_S2002944x1_S2002944_n_0_0_1_wf
def gather_S100000x6_S2002944x1_S2002944x6_1_0_n_n_0_1_16 : GatherDims S100000x6 S2002944x1 S2002944x6 where
  offsetDims := [1]
  collapsedSliceDims := [0]
  operandBatchingDims := []
  startIndicesBatchingDims := []
  startIndexMap := [0]
  indexVectorDim := 1
  sliceSizes := ![1, 6]
  wf := gather_S100000x6_S2002944x1_S2002944x6_1_0_n_n_0_1_16_wf
def scatter_S100000x6_S2002944x1_S2002944x6_1_0_0_1 : ScatterDims S100000x6 S2002944x1 S2002944x6 where
  updateWindowDims := [1]
  insertedWindowDims := [0]
  scatterDimsToOperandDims := [0]
  indexVectorDim := 1
  wf := scatter_S100000x6_S2002944x1_S2002944x6_1_0_0_1_wf
def dot_S5000x6_S6x128_S5000x128_1_0_0_1_n_n : DotDims S5000x6 S6x128 S5000x128 where
  lhsContracting := [1]
  rhsContracting := [0]
  lhsNonContracting := [0]
  rhsNonContracting := [1]
  lhsBatch := []
  rhsBatch := []
  wf := dot_S5000x6_S6x128_S5000x128_1_0_0_1_n_n_wf
def gather_S100000x128_S2002944x1_S2002944x128_1_0_n_n_0_1_1128 : GatherDims S100000x128 S2002944x1 S2002944x128 where
  offsetDims := [1]
  collapsedSliceDims := [0]
  operandBatchingDims := []
  startIndicesBatchingDims := []
  startIndexMap := [0]
  indexVectorDim := 1
  sliceSizes := ![1, 128]
  wf := gather_S100000x128_S2002944x1_S2002944x128_1_0_n_n_0_1_1128_wf
def scatter_S100000x128_S2002944x1_S2002944x128_1_0_0_1 : ScatterDims S100000x128 S2002944x1 S2002944x128 where
  updateWindowDims := [1]
  insertedWindowDims := [0]
  scatterDimsToOperandDims := [0]
  indexVectorDim := 1
  wf := scatter_S100000x128_S2002944x1_S2002944x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v24) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S6x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S6x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x6 : Shape := ⟨2, ![100000, 6]⟩
abbrev S2x2000000 : Shape := ⟨2, ![2, 2000000]⟩
abbrev S6x128 : Shape := ⟨2, ![6, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x6 : Shape := ⟨2, ![2000000, 6]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S2000000x128 : Shape := ⟨2, ![2000000, 128]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S2x2000000, .i32⟩
  | .hbm, ⟨2, _⟩ => ⟨S6x128, .f32⟩
  | .hbm, ⟨3, _⟩ => ⟨S128, .f32⟩
  | .hbm, ⟨4, _⟩ => ⟨S6x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x2000000, .i32⟩
  | .hbm, ⟨11, _⟩ => ⟨S2000000, .i32⟩
  | .hbm, ⟨12, _⟩ => ⟨S1x2000000, .i32⟩
  | .hbm, ⟨13, _⟩ => ⟨S2000000, .i32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x6, .f32⟩
  | .hbm, ⟨23, _⟩ => ⟨S_, .f32⟩
  | .hbm, ⟨24, _⟩ => ⟨S100000x6, .f32⟩
  | .hbm, ⟨25, _⟩ => ⟨S2000000x1, .i32⟩
  | .hbm, ⟨26, _⟩ => ⟨S100000x6, .f32⟩
  | .hbm, ⟨27, _⟩ => ⟨S_, .f32⟩
  | .hbm, ⟨28, _⟩ => ⟨S2000000, .f32⟩
  | .hbm, ⟨29, _⟩ => ⟨S_, .f32⟩
  | .hbm, ⟨30, _⟩ => ⟨S100000, .f32⟩
  | .hbm, ⟨31, _⟩ => ⟨S2000000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x6, .f32⟩
  | .hbm, ⟨38, _⟩ => ⟨S100000x6, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S2000000, .i32⟩
  | .hbm, ⟨50, _⟩ => ⟨S2000000, .i1⟩
  | .hbm, ⟨51, _⟩ => ⟨S_, .i32⟩
  | .hbm, ⟨52, _⟩ => ⟨S2000000, .i32⟩
  | .hbm, ⟨53, _⟩ => ⟨S2000000, .i32⟩
  | .hbm, ⟨54, _⟩ => ⟨S2000000, .i32⟩
  | .hbm, ⟨55, _⟩ => ⟨S2000000x1, .i32⟩
  | .hbm, ⟨56, _⟩ => ⟨S2000000x128, .f32⟩
  | .hbm, ⟨57, _⟩ => ⟨S_, .f32⟩
  | .hbm, ⟨58, _⟩ => ⟨S100000x128, .f32⟩
  | .hbm, ⟨59, _⟩ => ⟨S2000000x1, .i32⟩
  | .hbm, ⟨60, _⟩ => ⟨S100000x128, .f32⟩
  | .hbm, ⟨61, _⟩ => ⟨S_, .f32⟩
  | .hbm, ⟨62, _⟩ => ⟨S2000000, .f32⟩
  | .hbm, ⟨63, _⟩ => ⟨S_, .f32⟩
  | .hbm, ⟨64, _⟩ => ⟨S100000, .f32⟩
  | .hbm, ⟨65, _⟩ => ⟨S2000000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x1, .f32⟩
  | .hbm, ⟨83, _⟩ => ⟨S1x1, .f32⟩
  | .hbm, ⟨84, _⟩ => ⟨S100000x1, .f32⟩
  | .hbm, ⟨85, _⟩ => ⟨S100000x1, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x6 : S_.BroadcastsInDim S100000x6 (![] : Fin 0 → Fin S100000x6.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x6_S2000000x1_S2000000x6_1_0_n_n_0_1_16_wf : GatherDims.WF S100000x6 S2000000x1 S2000000x6 [1] [0] [] [0] [] 1 ![1, 6]
  scatter_S100000x6_S2000000x1_S2000000x6_1_0_0_1_wf : ScatterDims.WF S100000x6 S2000000x1 S2000000x6 [1] [0] [0] 1
  scatter_S100000_S2000000x1_S2000000_n_0_0_1_wf : ScatterDims.WF S100000 S2000000x1 S2000000 [] [0] [0] 1
  dot_S100000x6_S6x128_S100000x128_1_0_0_1_n_n_wf : DotDims.WF S100000x6 S6x128 S100000x128 [1] [0] [0] [1] [] []
  gather_S100000x128_S2000000x1_S2000000x128_1_0_n_n_0_1_1128_wf : GatherDims.WF S100000x128 S2000000x1 S2000000x128 [1] [0] [] [0] [] 1 ![1, 128]
  scatter_S100000x128_S2000000x1_S2000000x128_1_0_0_1_wf : ScatterDims.WF S100000x128 S2000000x1 S2000000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x6_S2000000x1_S2000000x6_1_0_n_n_0_1_16 : GatherDims S100000x6 S2000000x1 S2000000x6 where
  offsetDims := [1]
  collapsedSliceDims := [0]
  operandBatchingDims := []
  startIndicesBatchingDims := []
  startIndexMap := [0]
  indexVectorDim := 1
  sliceSizes := ![1, 6]
  wf := gather_S100000x6_S2000000x1_S2000000x6_1_0_n_n_0_1_16_wf
def scatter_S100000x6_S2000000x1_S2000000x6_1_0_0_1 : ScatterDims S100000x6 S2000000x1 S2000000x6 where
  updateWindowDims := [1]
  insertedWindowDims := [0]
  scatterDimsToOperandDims := [0]
  indexVectorDim := 1
  wf := scatter_S100000x6_S2000000x1_S2000000x6_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  The mathematics both programs compute, over the extended reals.

  A graph has `N` nodes and a list of edges; edge `e` carries a destination word (read as a signed integer, and
  contributing to node `n` exactly when that integer is `n`) and a source row.  One SAGE layer takes, for every node,
  the sum of the source rows of its incoming edges divided by the number of those edges (at least one), sends that mean
  through `Wl`, adds the bias and the node's own row through `Wr`, and clips at zero.  Two such layers and a linear
  head give the result.

  The two programs differ in two places only.  One divides the sum by the count, the other multiplies it by the
  reciprocal of the count: the count is a real number that is at least one, so the two agree on every extended real.
  One of them lists some extra edges after the real ones, all with a destination that is no node: a sum over the
  edges that land on a node does not see them.
-/
import Idealize.ShloMosaic.Lib.ValueIdx
import Idealize.ShloMosaic.PureOps.Ideal
import Idealize.ShloMosaic.PureOps.Ideal.Laws

noncomputable section

open scoped BigOperators

namespace Sage

open Idealize.ShloMosaic Idealize.ShloMosaic.ValueIdx

/-- A matrix of extended reals with `N` rows and `D` columns. -/
abbrev Mat (N D : Nat) := (⟨2, ![N, D]⟩ : Shape).Idx → EReal
/-- A vector of extended reals of length `N`. -/
abbrev Vect (N : Nat) := (⟨1, ![N]⟩ : Shape).Idx → EReal

/-- The f32 word of `1.0` denotes the extended real one. -/
theorem ofBits_one_f32 : Ideal.ofBits .f32 0x3F800000#32 = 1 := by
  simp [Ideal.ofBits, Ideal.ieee]
  rw [← EReal.coe_mul]
  norm_num

/-- A sum of ones over a finite set is its number of elements. -/
theorem sum_one_eq_card {ι : Type} (s : Finset ι) : ∑ _i ∈ s, (1 : EReal) = ((s.card : ℝ) : EReal) := by
  classical
  induction s using Finset.induction_on with
  | empty => simp
  | insert a s ha ih =>
    rw [Finset.sum_insert ha, ih, Finset.card_insert_of_notMem ha]
    push_cast
    rw [add_comm]

/-! ## Sums over the edges that land on a node -/

/-- The sum of `f e` over the edges `e` whose destination reads `n`. -/
def segSum {E : Nat} (dst : Fin E → ℤ) (f : Fin E → EReal) (n : ℕ) : EReal :=
  ∑ e ∈ Finset.univ.filter (fun e : Fin E => dst e = (n : ℤ)), f e

/-- Edges appended after the first `E`, none of which lands on `n`, do not change the sum at `n`. -/
theorem segSum_pad {E E' : Nat} (h : E ≤ E') (dst : Fin E → ℤ) (dst' : Fin E' → ℤ) (f : Fin E → EReal)
    (f' : Fin E' → EReal) (n : ℕ)
    (hd : ∀ e : Fin E, dst' (Fin.castLE h e) = dst e) (hf : ∀ e : Fin E, f' (Fin.castLE h e) = f e)
    (hhi : ∀ e' : Fin E', E ≤ e'.val → dst' e' ≠ (n : ℤ)) :
    segSum dst' f' n = segSum dst f n := by
  unfold segSum
  symm
  refine Finset.sum_bij (fun e _ => Fin.castLE h e) ?_ ?_ ?_ ?_
  · intro e he
    rw [Finset.mem_filter] at he ⊢
    exact ⟨Finset.mem_univ _, (hd e).trans he.2⟩
  · intro a _ b _ hab
    exact Fin.castLE_injective h hab
  · intro e' he'
    rw [Finset.mem_filter] at he'
    have hlt : e'.val < E := by
      by_contra hge
      exact hhi e' (Nat.le_of_not_lt hge) he'.2
    refine ⟨⟨e'.val, hlt⟩, ?_, Fin.ext rfl⟩
    rw [Finset.mem_filter]
    refine ⟨Finset.mem_univ _, ?_⟩
    rw [← hd ⟨e'.val, hlt⟩]
    exact he'.2
  · intro e _
    exact (hf e).symm

/-- A sum of ones over a finite set of edges is a natural number. -/
theorem segSum_one {E : Nat} (dst : Fin E → ℤ) (n : ℕ) :
    segSum dst (fun _ => (1 : EReal)) n
      = (((Finset.univ.filter (fun e : Fin E => dst e = (n : ℤ))).card : ℝ) : EReal) := by
  unfold segSum
  exact sum_one_eq_card _

/-! ## Aggregation, counts and means -/

/-- Row `n` of the aggregate: zero plus the sum of the source rows of the edges landing on `n`. -/
def aggOf {E N D : Nat} (dst : Fin E → ℤ) (row : Fin E → Fin N) (X : Mat N D) : Mat N D :=
  fun i => 0 + segSum dst (fun e => X (ix2 (row e) ⟨(i 1).val, idx2_lt1 i⟩)) (i 0).val

/-- The number of edges landing on `n`, but at least one. -/
def cntOf {E : Nat} (N : Nat) (dst : Fin E → ℤ) : Vect N :=
  fun i => max (0 + segSum dst (fun _ => (1 : EReal)) (i 0).val) 1

/-- The count is a real number that is not zero. -/
theorem cntOf_real {E : Nat} (N : Nat) (dst : Fin E → ℤ) (i : (⟨1, ![N]⟩ : Shape).Idx) :
    ∃ r : ℝ, r ≠ 0 ∧ cntOf N dst i = (r : EReal) := by
  unfold cntOf
  rw [segSum_one, zero_add]
  refine ⟨max ((Finset.univ.filter (fun e : Fin E => dst e = ((i 0).val : ℤ))).card : ℝ) 1, ?_, ?_⟩
  · have : (1 : ℝ) ≤ max ((Finset.univ.filter (fun e : Fin E => dst e = ((i 0).val : ℤ))).card : ℝ) 1 := le_max_right _ _
    linarith
  · rw [EReal.coe_strictMono.monotone.map_max, EReal.coe_one]

/-- The aggregate divided, row by row, by the count. -/
def meanDiv {N D : Nat} (agg : Mat N D) (cnt : Vect N) : Mat N D :=
  fun i => Ideal.div (agg i) (cnt (ix1 ⟨(i 0).val, idx2_lt0 i⟩))

/-- The reciprocals of the counts, as a column. -/
def invOf {N : Nat} (cnt : Vect N) : Mat N 1 :=
  fun i => Ideal.div 1 (cnt (ix1 ⟨(i 0).val, idx2_lt0 i⟩))

/-- The aggregate multiplied, row by row, by a column. -/
def meanMul {N D : Nat} (agg : Mat N D) (inv : Mat N 1) : Mat N D :=
  fun i => agg i * inv (ix2 ⟨(i 0).val, idx2_lt0 i⟩ (0 : Fin 1))

/-- Multiplying by the reciprocal of a nonzero real count is dividing by it, on every extended real. -/
theorem meanMul_invOf {N D : Nat} (agg : Mat N D) (cnt : Vect N)
    (h : ∀ i, ∃ r : ℝ, r ≠ 0 ∧ cnt i = (r : EReal)) : meanMul agg (invOf cnt) = meanDiv agg cnt := by
  funext i
  unfold meanMul invOf meanDiv
  obtain ⟨r, hr, hc⟩ := h (ix1 ⟨(i 0).val, idx2_lt0 i⟩)
  show agg i * Ideal.div 1 (cnt (ix1 ⟨(i 0).val, idx2_lt0 i⟩)) = Ideal.div (agg i) (cnt (ix1 ⟨(i 0).val, idx2_lt0 i⟩))
  rw [hc, Ideal.div_coe hr, Ideal.div_coe hr, one_mul]

/-! ## The layers -/

/-- One layer: the mean through `Wl`, plus the bias, plus the node's own row through `Wr`, clipped at zero. -/
def layer {N K J : Nat} (mean root : Mat N K) (Wl Wr : Mat K J) (b : Vect J) : Mat N J :=
  fun i => max (((∑ k : Fin K, mean (ix2 ⟨(i 0).val, idx2_lt0 i⟩ k) * Wl (ix2 k ⟨(i 1).val, idx2_lt1 i⟩))
      + b (ix1 ⟨(i 1).val, idx2_lt1 i⟩))
    + ∑ k : Fin K, root (ix2 ⟨(i 0).val, idx2_lt0 i⟩ k) * Wr (ix2 k ⟨(i 1).val, idx2_lt1 i⟩)) 0

/-- The linear head: each row through `Wlin`, plus its bias. -/
def head {N J : Nat} (h : Mat N J) (Wlin : Mat J 1) (blin : Vect 1) : Mat N 1 :=
  fun i => (∑ j : Fin J, h (ix2 ⟨(i 0).val, idx2_lt0 i⟩ j) * Wlin (ix2 j ⟨(i 1).val, idx2_lt1 i⟩))
    + blin (ix1 ⟨(i 1).val, idx2_lt1 i⟩)

/-- The whole network from the edges' destinations and source rows, dividing by the count. -/
def net {E N : Nat} (dst : Fin E → ℤ) (row : Fin E → Fin N) (x : Mat N 6) (W1l W1r : Mat 6 128) (b1 : Vect 128)
    (W2l W2r : Mat 128 128) (b2 : Vect 128) (Wlin : Mat 128 1) (blin : Vect 1) : Mat N 1 :=
  head (layer (meanDiv (aggOf dst row (layer (meanDiv (aggOf dst row x) (cntOf N dst)) x W1l W1r b1)) (cntOf N dst))
    (layer (meanDiv (aggOf dst row x) (cntOf N dst)) x W1l W1r b1) W2l W2r b2) Wlin blin

/-- The same network multiplying by the reciprocal of the count. -/
def netMul {E N : Nat} (dst : Fin E → ℤ) (row : Fin E → Fin N) (x : Mat N 6) (W1l W1r : Mat 6 128) (b1 : Vect 128)
    (W2l W2r : Mat 128 128) (b2 : Vect 128) (Wlin : Mat 128 1) (blin : Vect 1) : Mat N 1 :=
  head (layer (meanMul (aggOf dst row (layer (meanMul (aggOf dst row x) (invOf (cntOf N dst))) x W1l W1r b1)) (invOf (cntOf N dst)))
    (layer (meanMul (aggOf dst row x) (invOf (cntOf N dst))) x W1l W1r b1) W2l W2r b2) Wlin blin

/-- Multiplying by the reciprocal is dividing: the two networks are one. -/
theorem netMul_eq_net {E N : Nat} (dst : Fin E → ℤ) (row : Fin E → Fin N) (x : Mat N 6) (W1l W1r : Mat 6 128) (b1 : Vect 128)
    (W2l W2r : Mat 128 128) (b2 : Vect 128) (Wlin : Mat 128 1) (blin : Vect 1) :
    netMul dst row x W1l W1r b1 W2l W2r b2 Wlin blin = net dst row x W1l W1r b1 W2l W2r b2 Wlin blin := by
  unfold netMul net
  rw [meanMul_invOf _ _ (cntOf_real N dst), meanMul_invOf _ _ (cntOf_real N dst)]

/-- Extra edges with a destination that is no node change nothing. -/
theorem net_pad {E E' N : Nat} (h : E ≤ E') (dst : Fin E → ℤ) (dst' : Fin E' → ℤ) (row : Fin E → Fin N) (row' : Fin E' → Fin N)
    (hd : ∀ e : Fin E, dst' (Fin.castLE h e) = dst e) (hr : ∀ e : Fin E, row' (Fin.castLE h e) = row e)
    (hhi : ∀ e' : Fin E', E ≤ e'.val → ∀ n : ℕ, n < N → dst' e' ≠ (n : ℤ))
    (x : Mat N 6) (W1l W1r : Mat 6 128) (b1 : Vect 128) (W2l W2r : Mat 128 128) (b2 : Vect 128) (Wlin : Mat 128 1) (blin : Vect 1) :
    net dst' row' x W1l W1r b1 W2l W2r b2 Wlin blin = net dst row x W1l W1r b1 W2l W2r b2 Wlin blin := by
  have hagg : ∀ {D : Nat} (X : Mat N D), aggOf dst' row' X = aggOf dst row X := by
    intro D X
    funext i
    unfold aggOf
    rw [segSum_pad h dst dst' _ _ (i 0).val hd (fun e => by rw [hr e]) (fun e' he' => hhi e' he' _ (idx2_lt0 i))]
  have hcnt : cntOf N dst' = cntOf N dst := by
    funext i
    unfold cntOf
    rw [segSum_pad h dst dst' _ _ (i 0).val hd (fun _ => rfl) (fun e' he' => hhi e' he' _ (i 0).isLt)]
  unfold net
  rw [hagg, hagg, hcnt]

end Sage

end
-- ==== Proof.LibGatherScatter.lean ====
/-
  Row gathers and row scatters read at an index.

  `x[idx]` along axis 0 of a matrix `x : [N, D]` (or of a vector `x : [N]`) at start indices `idx : [E, 1]` reads row
  `idx[e, 0]`, taken as a signed integer and clamped into `[0, N - 1]`. The accumulating scatter of updates
  `[E, D]` into `[N, D]` at the same kind of indices adds update row `e` to row `idx[e, 0]`, read signed and NOT
  clamped: a row index outside `[0, N)` drops the update. Both are stated here for any extents.
-/
import Idealize.ShloMosaic.Lib.ValueIdx
import Idealize.ShloMosaic.PureOps.Ideal

noncomputable section

namespace LibGatherScatter

open Idealize.ShloMosaic Idealize.ShloMosaic.ValueIdx

/-- The row a start index word names in an axis of extent `N`: the word as a signed integer, clamped into `[0, N - 1]`. -/
def clampRow (N : Nat) (hN : 0 < N) {w : Nat} (v : BitVec w) : Fin N := ⟨min v.toInt.toNat (N - 1), by omega⟩

section Gather
variable {α : Type}

/-- The dimension numbers of `x[idx]` along axis 0 of a matrix: rows of `D` entries, one start index per result row. -/
abbrev rowsDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry `(e, k)` of the row gather is the matrix at row `clampRow idx[e, 0]`, column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N E D wf) x idx (ix2 e k) = x (ix2 (clampRow N hN (idx (ix2 e (0 : Fin 1)))) k) := by
  unfold Host.gather
  congr 1
  funext a
  refine Fin.ext ?_
  match a with
  | ⟨0, _⟩ =>
    show (rowsDims N E D wf).start (ix2 e k) idx 0 + (rowsDims N E D wf).batchCoord (ix2 e k) 0
      + (rowsDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e k) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E D wf).start (ix2 e k) idx 1 + (rowsDims N E D wf).batchCoord (ix2 e k) 1
      + (rowsDims N E D wf).offCoord (ix2 e k) 1 = k.val
    rw [GatherDims.batchCoord_eq_zero _ _ _ List.not_mem_nil]
    unfold GatherDims.start
    rw [dif_neg (show ¬ (1 : Fin 2) ∈ (rowsDims N E D wf).startIndexMap from (by decide : ¬ (1 : Fin 2) ∈ ([0] : List (Fin 2))))]
    simp only [Nat.add_zero, Nat.zero_add]
    unfold GatherDims.offCoord
    rw [dif_pos (show (1 : Fin 2) ∈ (rowsDims N E D wf).sKept from (GatherDims.mem_sKept _ _).mpr ⟨(by decide : ¬ (1 : Fin 2) ∈ ([0] : List (Fin 2))), List.not_mem_nil⟩)]
    rfl

/-- The dimension numbers of `x[idx]` of a vector: one entry per start index. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the vector gather is the vector at `clampRow idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

section Scatter

/-- The dimension numbers of the accumulating row scatter: update row `e` goes to the row its index word names. -/
abbrev scatRowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

theorem scat_start0 (idx : IVec ⟨2, ![E, 1]⟩ w) (e : Fin E) (k : Fin D) :
    (scatRowsDims N E D wf).start (ix2 e k) idx 0 = (idx (ix2 e (0 : Fin 1))).toInt := by
  unfold ScatterDims.start
  rw [dif_pos (show (0 : Fin 2) ∈ (scatRowsDims N E D wf).scatterDimsToOperandDims from List.mem_singleton.mpr rfl)]
  have hsi : (scatRowsDims N E D wf).siIdx (ix2 e k) ⟨List.idxOf (0 : Fin 2) (scatRowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat_start1 (idx : IVec ⟨2, ![E, 1]⟩ w) (e : Fin E) (k : Fin D) :
    (scatRowsDims N E D wf).start (ix2 e k) idx 1 = 0 := by
  unfold ScatterDims.start
  rw [dif_neg (show ¬ (1 : Fin 2) ∈ (scatRowsDims N E D wf).scatterDimsToOperandDims from
    (by decide : ¬ (1 : Fin 2) ∈ ([0] : List (Fin 2))))]

theorem scat_window0 (e : Fin E) (k : Fin D) : (scatRowsDims N E D wf).window (ix2 e k) 0 = 0 := by
  unfold ScatterDims.window
  rw [dif_neg]
  intro h
  have : (0 : Fin 2) ∈ (⟨2, ![N, D]⟩ : Shape).kept [0] := h
  simp [Shape.kept] at this

theorem scat_window1 (e : Fin E) (k : Fin D) : (scatRowsDims N E D wf).window (ix2 e k) 1 = k.val := by
  unfold ScatterDims.window
  rw [dif_pos (show (1 : Fin 2) ∈ (scatRowsDims N E D wf).sKept by
    show (1 : Fin 2) ∈ (⟨2, ![N, D]⟩ : Shape).kept [0]; simp [Shape.kept])]
  rfl

/-- Update `(e, k)` lands on `(n, k')` exactly when the edge's index word, read signed, is `n` and `k = k'`. -/
theorem scatter_rows_resultIdx (idx : IVec ⟨2, ![E, 1]⟩ w) (e : Fin E) (k : Fin D) (n : Fin N) (k' : Fin D) :
    (scatRowsDims N E D wf).resultIdx? (ix2 e k) idx = some (ix2 n k')
      ↔ (idx (ix2 e (0 : Fin 1))).toInt = (n.val : ℤ) ∧ k = k' := by
  unfold ScatterDims.resultIdx?
  constructor
  · intro h
    split at h
    · rename_i hall
      have h' := Option.some.inj h
      have h0 := congrArg (fun f => (f 0).val) h'
      have h1 := congrArg (fun f => (f 1).val) h'
      simp only [scat_start0, scat_start1, scat_window0, scat_window1] at h0 h1
      have hb := hall 0
      simp only [scat_start0, scat_window0] at hb
      refine ⟨?_, Fin.ext ?_⟩
      · have : ((idx (ix2 e (0 : Fin 1))).toInt + ((0 : Nat) : ℤ)).toNat = n.val := h0
        omega
      · have : ((0 : ℤ) + ((k.val : Nat) : ℤ)).toNat = k'.val := h1
        omega
    · exact absurd h (by simp)
  · rintro ⟨hn, rfl⟩
    have hall : ∀ a, 0 ≤ (scatRowsDims N E D wf).start (ix2 e k) idx a + (scatRowsDims N E D wf).window (ix2 e k) a ∧
        (scatRowsDims N E D wf).start (ix2 e k) idx a + (scatRowsDims N E D wf).window (ix2 e k) a < (⟨2, ![N, D]⟩ : Shape).size a := by
      intro a
      match a with
      | ⟨0, _⟩ =>
        show 0 ≤ (scatRowsDims N E D wf).start (ix2 e k) idx 0 + ((scatRowsDims N E D wf).window (ix2 e k) 0 : ℤ) ∧
          (scatRowsDims N E D wf).start (ix2 e k) idx 0 + ((scatRowsDims N E D wf).window (ix2 e k) 0 : ℤ) < (N : ℤ)
        rw [scat_start0, scat_window0, hn]; have := n.isLt; omega
      | ⟨1, _⟩ =>
        show 0 ≤ (scatRowsDims N E D wf).start (ix2 e k) idx 1 + ((scatRowsDims N E D wf).window (ix2 e k) 1 : ℤ) ∧
          (scatRowsDims N E D wf).start (ix2 e k) idx 1 + ((scatRowsDims N E D wf).window (ix2 e k) 1 : ℤ) < (D : ℤ)
        rw [scat_start1, scat_window1]; have := k.isLt; omega
    rw [dif_pos hall]
    congr 1
    funext a
    refine Fin.ext ?_
    match a with
    | ⟨0, _⟩ =>
      show ((scatRowsDims N E D wf).start (ix2 e k) idx 0 + ((scatRowsDims N E D wf).window (ix2 e k) 0 : ℤ)).toNat = n.val
      rw [scat_start0, scat_window0, hn]; omega
    | ⟨1, _⟩ =>
      show ((scatRowsDims N E D wf).start (ix2 e k) idx 1 + ((scatRowsDims N E D wf).window (ix2 e k) 1 : ℤ)).toNat = k.val
      rw [scat_start1, scat_window1]; omega

/-- THE ACCUMULATING ROW SCATTER READ AT `(n, d)`, on the extended reals: the operand's entry plus the sum, over the
    edges whose index word read signed is `n`, of the update's entry `(e, d)`. -/
theorem scatterAdd_rows_apply (x : (⟨2, ![N, D]⟩ : Shape).Idx → EReal) (idx : IVec ⟨2, ![E, 1]⟩ w)
    (upd : (⟨2, ![E, D]⟩ : Shape).Idx → EReal) (n : Fin N) (d : Fin D) :
    Ideal.hostScatterAdd (scatRowsDims N E D wf) x idx upd (ix2 n d)
      = x (ix2 n d) + ∑ e ∈ Finset.univ.filter (fun e : Fin E => (idx (ix2 e (0 : Fin 1))).toInt = (n.val : ℤ)), upd (ix2 e d) := by
  unfold Ideal.hostScatterAdd
  congr 1
  have key : ∀ j : (⟨2, ![E, D]⟩ : Shape).Idx, (scatRowsDims N E D wf).resultIdx? j idx = some (ix2 n d) →
      (idx (ix2 (⟨(j 0).val, idx2_lt0 j⟩ : Fin E) (0 : Fin 1))).toInt = (n.val : ℤ) ∧ j = ix2 (⟨(j 0).val, idx2_lt0 j⟩ : Fin E) d := by
    intro j hj
    have hj2 := hj
    rw [eq_ix2 j] at hj2
    have h := (scatter_rows_resultIdx wf idx (⟨(j 0).val, idx2_lt0 j⟩ : Fin E) (⟨(j 1).val, idx2_lt1 j⟩ : Fin D) n d).mp hj2
    refine ⟨h.1, ?_⟩
    rw [← h.2]; exact eq_ix2 j
  refine Finset.sum_bij' (fun j _ => (⟨(j 0).val, idx2_lt0 j⟩ : Fin E)) (fun e _ => ix2 e d) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (scatter_rows_resultIdx wf idx e d n d).mpr ⟨(Finset.mem_filter.mp he).2, rfl⟩⟩
  · intro j hj
    exact ((key j (Finset.mem_filter.mp hj).2).2).symm
  · intro e _; rfl
  · intro j hj
    exact congrArg upd (key j (Finset.mem_filter.mp hj).2).2

end Scatter

end LibGatherScatter

end
-- ==== Proof.Edges.lean ====
/-
  The edge list as each program reads it.

  The edge array has two rows of `E` words: row 0 the sources, row 1 the destinations.  A destination word is read as
  a signed integer.  A source word is first read the way array indexing reads it (a negative word counts from the
  end: `N` is added to it) and then clamped into the rows of the table.  One program pads both rows to `E'` words, the
  sources with the word 0 and the destinations with the word `N`, which is no node.
-/
import Idealize.ShloMosaic.Lib.ValueIdx
import proofs.«415709_j17952963297293_4_alg».proof.Proof.LibGatherScatter

noncomputable section

namespace Edges

open Idealize.ShloMosaic Idealize.ShloMosaic.ValueIdx

/-- The edge array: two rows of `E` words. -/
abbrev EI (E : Nat) := (⟨2, ![2, E]⟩ : Shape).Idx → BitVec 32

/-- A source word as array indexing reads it: a negative word counts from the end of an axis of extent `Nw`. -/
def norm (Nw : BitVec 32) (w : BitVec 32) : BitVec 32 :=
  Scalar.select (IntOp.cmpi .slt w 0#32) (IntOp.addi w Nw) w

/-- A row of `E` words padded to `E'` words with the word `v`. -/
def padW {E : Nat} (E' : Nat) (x : Fin E → BitVec 32) (v : BitVec 32) : Fin E' → BitVec 32 :=
  fun e => if h : e.val < E then x ⟨e.val, h⟩ else v

/-- Edge `e`'s destination, read signed. -/
def dstR {E : Nat} (ei : EI E) : Fin E → ℤ := fun e => (ei (ix2 (1 : Fin 2) e)).toInt

/-- Edge `e`'s source row: the word read as an index, clamped into the table. -/
def rowR {E : Nat} (N : Nat) (hN : 0 < N) (Nw : BitVec 32) (ei : EI E) : Fin E → Fin N :=
  fun e => LibGatherScatter.clampRow N hN (norm Nw (ei (ix2 (0 : Fin 2) e)))

/-- The padded list's destinations: the pad word `Nw` after the first `E`. -/
def dstK {E : Nat} (E' : Nat) (Nw : BitVec 32) (ei : EI E) : Fin E' → ℤ :=
  fun e => (padW E' (fun e => ei (ix2 (1 : Fin 2) e)) Nw e).toInt

/-- The padded list's source rows: the pad word 0 after the first `E`. -/
def rowK {E : Nat} (E' : Nat) (N : Nat) (hN : 0 < N) (Nw : BitVec 32) (ei : EI E) : Fin E' → Fin N :=
  fun e => LibGatherScatter.clampRow N hN (norm Nw (padW E' (fun e => ei (ix2 (0 : Fin 2) e)) 0#32 e))

theorem padW_castLE {E E' : Nat} (h : E ≤ E') (x : Fin E → BitVec 32) (v : BitVec 32) (e : Fin E) :
    padW E' x v (Fin.castLE h e) = x e := by
  unfold padW
  rw [dif_pos (show (Fin.castLE h e).val < E from e.isLt)]
  exact congrArg x (Fin.ext rfl)

theorem padW_of_le {E E' : Nat} (x : Fin E → BitVec 32) (v : BitVec 32) (e : Fin E') (he : E ≤ e.val) :
    padW E' x v e = v := by
  unfold padW
  rw [dif_neg (Nat.not_lt.mpr he)]

/-- On the first `E` edges the padded list is the list. -/
theorem dstK_castLE {E E' : Nat} (h : E ≤ E') (Nw : BitVec 32) (ei : EI E) (e : Fin E) :
    dstK E' Nw ei (Fin.castLE h e) = dstR ei e := by
  unfold dstK dstR
  rw [padW_castLE]

theorem rowK_castLE {E E' : Nat} (h : E ≤ E') (N : Nat) (hN : 0 < N) (Nw : BitVec 32) (ei : EI E) (e : Fin E) :
    rowK E' N hN Nw ei (Fin.castLE h e) = rowR N hN Nw ei e := by
  unfold rowK rowR
  rw [padW_castLE]

/-- A padding edge's destination is the pad word, which reads `N`: no node. -/
theorem dstK_pad_ne {E E' : Nat} (N : Nat) (Nw : BitVec 32) (hNw : Nw.toInt = (N : ℤ)) (ei : EI E) (e : Fin E')
    (he : E ≤ e.val) (n : ℕ) (hn : n < N) : dstK E' Nw ei e ≠ (n : ℤ) := by
  unfold dstK
  rw [padW_of_le _ _ _ he, hNw]
  omega

/-! ## This network's sizes: 100000 nodes, 2000000 edges, padded to 2002944 -/

theorem toInt_nodes : (100000#32 : BitVec 32).toInt = ((100000 : ℕ) : ℤ) := by decide

/-- The list's destinations. -/
abbrev rDst (ei : EI 2000000) : Fin 2000000 → ℤ := dstR ei
/-- The list's source rows. -/
abbrev rRow (ei : EI 2000000) : Fin 2000000 → Fin 100000 := rowR 100000 (by decide) 100000#32 ei
/-- The padded list's destinations. -/
abbrev kDst (ei : EI 2000000) : Fin 2002944 → ℤ := dstK 2002944 100000#32 ei
/-- The padded list's source rows. -/
abbrev kRow (ei : EI 2000000) : Fin 2002944 → Fin 100000 := rowK 2002944 100000 (by decide) 100000#32 ei
/-- The padded source words. -/
abbrev kSrcW (ei : EI 2000000) : Fin 2002944 → BitVec 32 := padW 2002944 (fun e => ei (ix2 (0 : Fin 2) e)) 0#32
/-- The padded destination words. -/
abbrev kDstW (ei : EI 2000000) : Fin 2002944 → BitVec 32 := padW 2002944 (fun e => ei (ix2 (1 : Fin 2) e)) 100000#32

end Edges

end
-- ==== Proof.Region0.lean ====
import proofs.«415709_j17952963297293_4_alg».proof.Proof.Gen.KernelIdeal.Frame
import proofs.«415709_j17952963297293_4_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen
open Idealize.ShloMosaic.Pipeline (Dat Cfg Window)

/-! ## The contraction of a 5000×6 block with a 6×128 matrix, read at an entry -/

theorem lhs_dot_0 (i : S5000x128.Idx) (q : dot_S5000x6_S6x128_S5000x128_1_0_0_1_n_n.contr.Idx) :
    (dot_S5000x6_S6x128_S5000x128_1_0_0_1_n_n.lhsIdx i q 0).val = (i 0).val := by
  unfold DotDims.lhsIdx
  rw [dif_neg (show ¬(0 : Fin S5000x6.rank) ∈ dot_S5000x6_S6x128_S5000x128_1_0_0_1_n_n.lhsBatch by decide), dif_pos (show (0 : Fin S5000x6.rank) ∈ dot_S5000x6_S6x128_S5000x128_1_0_0_1_n_n.lhsNonContracting by decide)]
  rfl
theorem lhs_dot_1 (i : S5000x128.Idx) (q : dot_S5000x6_S6x128_S5000x128_1_0_0_1_n_n.contr.Idx) :
    (dot_S5000x6_S6x128_S5000x128_1_0_0_1_n_n.lhsIdx i q 1).val = (q ⟨0, by decide⟩).val :=
  dot_S5000x6_S6x128_S5000x128_1_0_0_1_n_n.lhsIdx_val_of_single rfl i q
theorem rhs_dot_0 (i : S5000x128.Idx) (q : dot_S5000x6_S6x128_S5000x128_1_0_0_1_n_n.contr.Idx) :
    (dot_S5000x6_S6x128_S5000x128_1_0_0_1_n_n.rhsIdx i q 0).val = (q ⟨0, by decide⟩).val :=
  dot_S5000x6_S6x128_S5000x128_1_0_0_1_n_n.rhsIdx_val_of_single rfl i q
theorem rhs_dot_1 (i : S5000x128.Idx) (q : dot_S5000x6_S6x128_S5000x128_1_0_0_1_n_n.contr.Idx) :
    (dot_S5000x6_S6x128_S5000x128_1_0_0_1_n_n.rhsIdx i q 1).val = (i 1).val := by
  unfold DotDims.rhsIdx
  rw [dif_neg (show ¬(1 : Fin S6x128.rank) ∈ dot_S5000x6_S6x128_S5000x128_1_0_0_1_n_n.rhsBatch by decide), dif_pos (show (1 : Fin S6x128.rank) ∈ dot_S5000x6_S6x128_S5000x128_1_0_0_1_n_n.rhsNonContracting by decide)]
  rfl

/-- A block times a matrix, accumulated into zero, is at entry `(p, q)` the sum over the six columns. -/
theorem matmul_block_apply (A : FVec Ideal S5000x6 .f32) (W : FVec Ideal S6x128 .f32) (p : Fin 5000) (q : Fin 128) :
    matmul dot_S5000x6_S6x128_S5000x128_1_0_0_1_n_n (some .fp32) A W (constant (F := Ideal) S5000x128 .f32 0x00000000#32) (ix2 p q)
      = ∑ k : Fin 6, A (ix2 p k) * W (ix2 k q) := by
  simp only [matmul]
  rw [Ideal.matmul_constant_zero_apply, ← Equiv.sum_comp (ValueIdx.contrEquiv1 dot_S5000x6_S6x128_S5000x128_1_0_0_1_n_n 6 rfl rfl).symm]
  refine Finset.sum_congr rfl fun k _ => ?_
  have hk := ValueIdx.contrEquiv1_symm_val dot_S5000x6_S6x128_S5000x128_1_0_0_1_n_n 6 rfl rfl k
  have el : dot_S5000x6_S6x128_S5000x128_1_0_0_1_n_n.lhsIdx (ix2 p q) ((ValueIdx.contrEquiv1 dot_S5000x6_S6x128_S5000x128_1_0_0_1_n_n 6 rfl rfl).symm k) = ix2 p k := funext fun a => Fin.ext (by
    match a with
    | ⟨0, _⟩ => exact lhs_dot_0 _ _
    | ⟨1, _⟩ => exact (lhs_dot_1 _ _).trans hk)
  have er : dot_S5000x6_S6x128_S5000x128_1_0_0_1_n_n.rhsIdx (ix2 p q) ((ValueIdx.contrEquiv1 dot_S5000x6_S6x128_S5000x128_1_0_0_1_n_n 6 rfl rfl).symm k) = ix2 k q := funext fun a => Fin.ext (by
    match a with
    | ⟨0, _⟩ => exact (rhs_dot_0 _ _).trans hk
    | ⟨1, _⟩ => exact rhs_dot_1 _ _)
  rw [el, er]

/-! ## The body's value at an entry of its block -/

/-- A column broadcast across the columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bias row spread over the block's rows reads, at `(p, q)`, the bias at `q`. -/
theorem bias_apply (b : FVec Ideal S128 .f32) (p : Fin 5000) (q : Fin 128) :
    broadcastTo S5000x128 (shapeCast S1x128 b shapeCasts_S128_S1x128) broadcasts_S1x128_S5000x128 (ix2 p q) = b (ix1 q) := by
  refine (broadcastTo_1b_ab_apply _ broadcasts_S1x128_S5000x128 p q).trans ?_
  exact shapeCast_a_1a_apply b shapeCasts_S128_S1x128 (0 : Fin 1) q

/-- The body's stored value at entry `(p, q)` of its block: the aggregate's row times its reciprocal count through
    the first matrix, plus the bias, plus the node's own row through the second matrix, clipped at zero. -/
theorem pay_apply (v0 : FVec Ideal S5000x6 .f32) (v2 : FVec Ideal S5000x1 .f32) (v6 : FVec Ideal S6x128 .f32)
    (v8 : FVec Ideal S5000x6 .f32) (v9 : FVec Ideal S6x128 .f32) (v11 : FVec Ideal S128 .f32) (p : Fin 5000) (q : Fin 128) :
    k0_pay1 (F := Ideal) v0 v2 v6 v8 v9 v11 (ix2 p q)
      = max (((∑ k : Fin 6, (v0 (ix2 p k) * v2 (ix2 p (0 : Fin 1))) * v6 (ix2 k q)) + v11 (ix1 q))
          + ∑ k : Fin 6, v8 (ix2 p k) * v9 (ix2 k q)) 0 := by
  unfold k0_pay1
  rw [maximumf_apply, addf_apply, addf_apply, broadcast_apply]
  rw [matmul_block_apply, matmul_block_apply, bias_apply]
  rw [show (Scalar.ofBits (F := Ideal) .f32 0x00000000#32 : Ideal .f32) = 0 from Ideal.ofBits_zero_f32]
  congr 3
  refine Finset.sum_congr rfl fun k _ => ?_
  rw [mulf_apply, shapeCast_self, shapeCast_self]
  rw [broadcastTo_a1_ab_apply]

/-! ## The blocks as rows of the arrays -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The block index maps over the grid: a row-blocked window sits at block row `t`, a whole-array window at zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the aggregate's block at point `t` is row `5000 t + p` of the aggregate. -/
theorem blk_agg (c : Dev nD) (t : Fin cfg0.N) (p : Fin 5000) (k : Fin 6) (r : Fin 100000) (hr : r.val = t.val * 5000 + p.val) :
    (iblk0 V c 0 t : Vec Ideal S5000x6 .f32) (ix2 p k) = (V c main_v24 : S100000x6.Idx → Elt Ideal .f32) (ix2 r k) := by
  obtain ⟨e0, e1, -⟩ := idx_facts t
  unfold iblk0
  rw [View.read_apply]
  show V c main_v24 _ = V c main_v24 _
  congr 1
  funext a; apply Fin.ext
  match a with
  | ⟨0, _⟩ => show win0_0.index t (0 : Fin 2) * 5000 + 1 * p.val = r.val; rw [e0, hr]; omega
  | ⟨1, _⟩ => show win0_0.index t (1 : Fin 2) * 6 + 1 * k.val = k.val; rw [e1]; omega

/-- Row `p` of the reciprocal counts' block at point `t` is row `5000 t + p` of the column. -/
theorem blk_inv (c : Dev nD) (t : Fin cfg0.N) (p : Fin 5000) (r : Fin 100000) (hr : r.val = t.val * 5000 + p.val) :
    (iblk0 V c 1 t : Vec Ideal S5000x1 .f32) (ix2 p (0 : Fin 1)) = (V c main_v14 : S100000x1.Idx → Elt Ideal .f32) (ix2 r (0 : Fin 1)) := by
  obtain ⟨-, -, e0, e1, -⟩ := idx_facts t
  unfold iblk0
  rw [View.read_apply]
  show V c main_v14 _ = V c main_v14 _
  congr 1
  funext a; apply Fin.ext
  match a with
  | ⟨0, _⟩ => show win0_1.index t (0 : Fin 2) * 5000 + 1 * p.val = r.val; rw [e0, hr]; omega
  | ⟨1, _⟩ => show win0_1.index t (1 : Fin 2) * 1 + 1 * 0 = 0; rw [e1]

/-- Row `p` of the nodes' own block at point `t` is row `5000 t + p` of the node features. -/
theorem blk_root (c : Dev nD) (t : Fin cfg0.N) (p : Fin 5000) (k : Fin 6) (r : Fin 100000) (hr : r.val = t.val * 5000 + p.val) :
    (iblk0 V c 2 t : Vec Ideal S5000x6 .f32) (ix2 p k) = (V c main_arg0 : S100000x6.Idx → Elt Ideal .f32) (ix2 r k) := by
  obtain ⟨-, -, -, -, e0, e1, -⟩ := idx_facts t
  unfold iblk0
  rw [View.read_apply]
  show V c main_arg0 _ = V c main_arg0 _
  congr 1
  funext a; apply Fin.ext
  match a with
  | ⟨0, _⟩ => show win0_2.index t (0 : Fin 2) * 5000 + 1 * p.val = r.val; rw [e0, hr]; omega
  | ⟨1, _⟩ => show win0_2.index t (1 : Fin 2) * 6 + 1 * k.val = k.val; rw [e1]; omega

/-- The first matrix's block at every point is the whole matrix. -/
theorem blk_Wl (c : Dev nD) (t : Fin cfg0.N) (k : Fin 6) (q : Fin 128) :
    (iblk0 V c 3 t : Vec Ideal S6x128 .f32) (ix2 k q) = (V c main_arg2 : S6x128.Idx → Elt Ideal .f32) (ix2 k q) := by
  obtain ⟨-, -, -, -, -, -, e0, e1, -⟩ := idx_facts t
  unfold iblk0
  rw [View.read_apply]
  show V c main_arg2 _ = V c main_arg2 _
  congr 1
  funext a; apply Fin.ext
  match a with
  | ⟨0, _⟩ => show win0_3.index t (0 : Fin 2) * 6 + 1 * k.val = k.val; rw [e0]; omega
  | ⟨1, _⟩ => show win0_3.index t (1 : Fin 2) * 128 + 1 * q.val = q.val; rw [e1]; omega

/-- The bias's block at every point is the whole bias. -/
theorem blk_b (c : Dev nD) (t : Fin cfg0.N) (q : Fin 128) :
    (iblk0 V c 4 t : Vec Ideal S128 .f32) (ix1 q) = (V c main_arg3 : S128.Idx → Elt Ideal .f32) (ix1 q) := by
  obtain ⟨-, -, -, -, -, -, -, -, e0, -⟩ := idx_facts t
  unfold iblk0
  rw [View.read_apply]
  show V c main_arg3 _ = V c main_arg3 _
  congr 1
  funext a; apply Fin.ext
  match a with
  | ⟨0, _⟩ => show win0_4.index t (0 : Fin 1) * 128 + 1 * q.val = q.val; rw [e0]; omega

/-- The second matrix's block at every point is the whole matrix. -/
theorem blk_Wr (c : Dev nD) (t : Fin cfg0.N) (k : Fin 6) (q : Fin 128) :
    (iblk0 V c 5 t : Vec Ideal S6x128 .f32) (ix2 k q) = (V c main_arg4 : S6x128.Idx → Elt Ideal .f32) (ix2 k q) := by
  obtain ⟨-, -, -, -, -, -, -, -, -, e0, e1, -⟩ := idx_facts t
  unfold iblk0
  rw [View.read_apply]
  show V c main_arg4 _ = V c main_arg4 _
  congr 1
  funext a; apply Fin.ext
  match a with
  | ⟨0, _⟩ => show win0_5.index t (0 : Fin 2) * 6 + 1 * k.val = k.val; rw [e0]; omega
  | ⟨1, _⟩ => show win0_5.index t (1 : Fin 2) * 128 + 1 * q.val = q.val; rw [e1]; omega

/-- Entry `(p, q)` of the output's block at point `t` is entry `(5000 t + p, q)` of the output. -/
theorem emb_out (t : Fin cfg0.N) (p : Fin 5000) (q : Fin 128) (r : Fin 100000) (hr : r.val = t.val * 5000 + p.val) :
    ((cfg0.win 6).blk t).view.emb (ix2 p q) = (ix2 r q : S100000x128.Idx) := by
  obtain ⟨-, -, -, -, -, -, -, -, -, -, -, e0, e1⟩ := idx_facts t
  funext a; apply Fin.ext
  match a with
  | ⟨0, _⟩ => show win0_6.index t (0 : Fin 2) * 5000 + 1 * p.val = r.val; rw [e0, hr]; omega
  | ⟨1, _⟩ => show win0_6.index t (1 : Fin 2) * 128 + 1 * q.val = q.val; rw [e1]; omega

/-! ## One layer at an entry -/

/-- One layer of the mean read at entry `(r, q)`. -/
theorem layer_meanMul_apply (agg : Sage.Mat 100000 6) (inv : Sage.Mat 100000 1) (root : Sage.Mat 100000 6)
    (Wl Wr : Sage.Mat 6 128) (b : Sage.Vect 128) (r : Fin 100000) (q : Fin 128) :
    Sage.layer (Sage.meanMul agg inv) root Wl Wr b (ix2 r q)
      = max (((∑ k : Fin 6, (agg (ix2 r k) * inv (ix2 r (0 : Fin 1))) * Wl (ix2 k q)) + b (ix1 q))
          + ∑ k : Fin 6, root (ix2 r k) * Wr (ix2 k q)) 0 := rfl

/-! ## What a point writes back, the cover, and the array -/

/-- What point `t` writes back is block `t` of one layer of the arrays the region is entered with. -/
theorem flushed_layer (c : Dev nD) (t : Fin cfg0.N) :
    (dat0 (F := Ideal) V c).flushed 6 t = ((cfg0.win 6).blk t).view.read (Elt Ideal)
      (Sage.layer (Sage.meanMul (V c main_v24) (V c main_v14)) (V c main_arg0) (V c main_arg2) (V c main_arg4) (V c main_arg3)) := by
  show (cfg0.win 6).cut (grid0.coords t) ((dat0 V c).after 6 t) = _
  rw [after0_6]
  unfold out0_6
  rw [View.canon_unit_zero zeros2]
  simp only [View.ld_unit_zero (S := S5000x6) zeros2, View.ld_unit_zero (S := S5000x1) zeros2,
    View.ld_unit_zero (S := S6x128) zeros2, View.ld_unit_zero (S := S128) zeros1]
  funext j
  obtain ⟨p, q, rfl⟩ : ∃ (p : Fin 5000) (q : Fin 128), j = ix2 p q := ⟨j 0, j 1, eq_ix2 j⟩
  have hN : cfg0.N = 20 := N_0
  have ht : t.val < 20 := hN ▸ t.isLt
  have hp : p.val < 5000 := p.isLt
  let r : Fin 100000 := ⟨t.val * 5000 + p.val, by omega⟩
  have hr : r.val = t.val * 5000 + p.val := rfl
  show k0_pay1 (F := Ideal) (iblk0 V c 0 t) (iblk0 V c 1 t) (iblk0 V c 3 t) (iblk0 V c 2 t) (iblk0 V c 5 t) (iblk0 V c 4 t) (ix2 p q)
    = Sage.layer (Sage.meanMul (V c main_v24) (V c main_v14)) (V c main_arg0) (V c main_arg2) (V c main_arg4) (V c main_arg3)
        (((cfg0.win 6).blk t).view.emb (ix2 p q))
  rw [emb_out t p q r hr, layer_meanMul_apply]
  refine (pay_apply (iblk0 V c 0 t) (iblk0 V c 1 t) (iblk0 V c 3 t) (iblk0 V c 2 t) (iblk0 V c 5 t) (iblk0 V c 4 t) p q).trans ?_
  refine congrArg₂ max (congrArg₂ (· + ·) (congrArg₂ (· + ·) ?_ (blk_b V c t q)) ?_) rfl
  · refine Finset.sum_congr rfl fun k _ => ?_
    exact congrArg₂ (· * ·) (congrArg₂ (· * ·) (blk_agg V c t p k r hr) (blk_inv V c t p r hr)) (blk_Wl V c t k q)
  · refine Finset.sum_congr rfl fun k _ => ?_
    exact congrArg₂ (· * ·) (blk_root V c t p k r hr) (blk_Wr V c t k q)

/-- An entry of the output is in point `t`'s block iff each coordinate is in the block's range on its axis. -/
theorem mem_blk_out (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v25).slice (win0_6.rect t)).set ↔ _
  rw [View.set_slice_whole, Rect.mem_set_unit]
  exact Iff.rfl

/-- Every entry of the output is in the block of the point that holds its row. -/
theorem cover_out (i : S100000x128.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  have htv : t.val = (i 0).val / 5000 := rfl
  obtain ⟨-, -, -, -, -, -, -, -, -, -, -, e0, e1⟩ := idx_facts t
  refine ⟨t, flush0_6 t, ?_⟩
  rw [mem_blk_out]
  intro a
  match a with
  | ⟨0, _⟩ => show win0_6.index t (0 : Fin 2) * 5000 ≤ (i 0).val ∧ (i 0).val < win0_6.index t (0 : Fin 2) * 5000 + 5000; rw [e0, htv]; omega
  | ⟨1, _⟩ => show win0_6.index t (1 : Fin 2) * 128 ≤ (i 1).val ∧ (i 1).val < win0_6.index t (1 : Fin 2) * 128 + 128; rw [e1]; omega

/-- Region 0's output array after the run: one SAGE layer of the arrays the region is entered with. -/
theorem region0_value (V : (c : Dev nD) → (b : Ref sig .tc) → Buf (Elt Ideal) ((c : Thread nD τ).loc b)) (c : Dev nD) :
    (dat0 (F := Ideal) V c).arrAt 6 cfg0.N
      = Sage.layer (Sage.meanMul (V c main_v24) (V c main_v14)) (V c main_arg0) (V c main_arg2) (V c main_arg4) (V c main_arg3) :=
  (dat0 (F := Ideal) V c).arrAt_eq_of_cover 6 _ (fun t _ => flushed_layer V c t) cover_out

end Cert.KernelIdeal.KVal

end
-- ==== Proof.Region1.lean ====
import proofs.«415709_j17952963297293_4_alg».proof.Proof.Gen.KernelIdeal.Frame
import proofs.«415709_j17952963297293_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen
open Idealize.ShloMosaic.Pipeline (Dat Cfg Window)
open scoped BigOperators

namespace R1

/-! ## The two block products read at an index -/

theorem lhs_sq_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_sq_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_sq_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_sq_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times a square weight, into the zero splat, at row `p` and column `j`: the sum over the inner index. -/
theorem matmul_sq_apply (x : FVec Ideal S5000x128 .f32) (w : FVec Ideal S128x128 .f32) (p : Fin 5000) (j : Fin 128) :
    matmul dot_S5000x128_S128x128_S5000x128_1_0_0_1_n_n (some .fp32) x w (constant (F := Ideal) S5000x128 .f32 0x00000000#32) (ix2 p j)
      = ∑ k : Fin 128, x (ix2 p k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_sq_0 _ _).trans hk
    | ⟨1, _⟩ => exact rhs_sq_1 _ _)
  rw [el, er]

theorem lhs_col_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_col_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhs_col_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhs_col_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A block of rows times a one-column weight, into the zero splat, at row `p`: the sum over the inner index. -/
theorem matmul_col_apply (x : FVec Ideal S5000x128 .f32) (w : FVec Ideal S128x1 .f32) (p : Fin 5000) (q : Fin 1) :
    matmul dot_S5000x128_S128x1_S5000x1_1_0_0_1_n_n (some .fp32) x w (constant (F := Ideal) S5000x1 .f32 0x00000000#32) (ix2 p q)
      = ∑ k : Fin 128, x (ix2 p k) * w (ix2 k q) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p q) ((contrEquiv1 dot_S5000x128_S128x1_S5000x1_1_0_0_1_n_n 128 rfl rfl).symm k) = ix2 p k := funext fun a => Fin.ext (by
    match a with
    | ⟨0, _⟩ => exact lhs_col_0 _ _
    | ⟨1, _⟩ => exact (lhs_col_1 _ _).trans hk)
  have er : dot_S5000x128_S128x1_S5000x1_1_0_0_1_n_n.rhsIdx (ix2 p q) ((contrEquiv1 dot_S5000x128_S128x1_S5000x1_1_0_0_1_n_n 128 rfl rfl).symm k) = ix2 k q := funext fun a => Fin.ext (by
    match a with
    | ⟨0, _⟩ => exact (rhs_col_0 _ _).trans hk
    | ⟨1, _⟩ => exact rhs_col_1 _ _)
  rw [el, er]

/-! ## The payload read at an index -/

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mean block: the aggregate's rows scaled by the column of reciprocals. -/
theorem mean_apply (x0 : FVec Ideal S5000x128 .f32) (x1 : FVec Ideal S5000x1 .f32) (p : Fin 5000) (k : Fin 128) :
    mulf x0 (broadcastTo S5000x128 x1 broadcasts_S5000x1_S5000x128) (ix2 p k)
      = x0 (ix2 p k) * x1 (ix2 p (0 : Fin 1)) := by
  rw [mulf_apply, broadcastTo_a1_ab_apply]

/-- The bias row spread over the rows of a block. -/
theorem bias_apply (b : FVec Ideal S128 .f32) (p : Fin 5000) (j : Fin 128) :
    broadcastTo S5000x128 (shapeCast S1x128 b shapeCasts_S128_S1x128) broadcasts_S1x128_S5000x128 (ix2 p j) = b (ix1 j) := by
  rw [broadcastTo_1b_ab_apply, shapeCast_a_1a_apply]

/-- The head's one bias spread over the rows of a block. -/
theorem bias1_apply (b : FVec Ideal S1 .f32) (p : Fin 5000) (q : Fin 1) :
    broadcastTo S5000x1 (shapeCast S1x1 b shapeCasts_S1_S1x1) broadcasts_S1x1_S5000x1 (ix2 p q) = b (ix1 q) := by
  rw [broadcastTo_1b_ab_apply, shapeCast_a_1a_apply]

/-- The body's result at row `p`: the mean through its weight, plus the bias, plus the root through its weight, clipped at zero,
    then through the head's weight, plus the head's bias. -/
theorem pay1_apply (x0 : Vec Ideal S5000x128 .f32) (x1 : Vec Ideal S5000x1 .f32) (w3 : Vec Ideal S128x128 .f32)
    (x2 : Vec Ideal S5000x128 .f32) (w5 : Vec Ideal S128x128 .f32) (b4 : Vec Ideal S128 .f32) (w6 : Vec Ideal S128x1 .f32)
    (b7 : Vec Ideal S1 .f32) (p : Fin 5000) (q : Fin 1) :
    k1_pay1 x0 x1 w3 x2 w5 b4 w6 b7 (ix2 p q)
      = (∑ j : Fin 128, max (((∑ k : Fin 128, (x0 (ix2 p k) * x1 (ix2 p (0 : Fin 1))) * w3 (ix2 k j)) + b4 (ix1 j))
            + ∑ k : Fin 128, x2 (ix2 p k) * w5 (ix2 k j)) 0 * w6 (ix2 j q)) + b7 (ix1 q) := by
  unfold k1_pay1
  simp only [shapeCast_self]
  rw [addf_apply, matmul_col_apply, bias1_apply]
  congr 1
  refine Finset.sum_congr rfl fun j _ => ?_
  rw [maximumf_apply, broadcast_apply, addf_apply, addf_apply, matmul_sq_apply, matmul_sq_apply, bias_apply,
    show (FloatOps.ofBits FTy.f32 0x00000000#32 : Ideal .f32) = 0 from Ideal.ofBits_zero_f32]
  simp only [mean_apply]

/-! ## From blocks to the array -/

theorem hz2 : (![0, 0] : Fin 2 → Nat) = fun _ => 0 := funext fun a => by fin_cases a <;> rfl
theorem hz1 : (![0] : Fin 1 → Nat) = fun _ => 0 := funext fun a => by fin_cases a; rfl

section
variable (V : (c : Dev nD) → (b : Ref sig .tc) → Buf (Elt Ideal) ((c : Thread nD τ).loc b)) (c : Dev nD)

/-- The second layer and the head of the arrays the region is entered with, as one function of the output's index. -/
abbrev headOf : Sage.Mat 100000 1 :=
  Sage.head (Sage.layer (Sage.meanMul (V c main_v37) (V c main_v14)) (V c main_v25) (V c main_arg5) (V c main_arg7) (V c main_arg6))
    (V c main_arg8) (V c main_arg9)

/-- The printed index maps, decided over the grid: a row-blocked window's block index is the point, a whole-array
    window's is zero; and the grid has twenty points. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ (win1_6.index t (0 : Fin 2) = 0 ∧ win1_6.index t (1 : Fin 2) = 0)
    ∧ win1_7.index t (0 : Fin 1) = 0
    ∧ (win1_8.index t (0 : Fin 2) = t.val ∧ win1_8.index t (1 : Fin 2) = 0)
    ∧ t.val < 20 :=
  (by decide +kernel : ∀ t : Fin grid1.N, _)

/-- Every row block is some point's. -/
theorem idx_onto1 : ∀ q : Fin 20, ∃ t : Fin cfg1.N, win1_8.index t (0 : Fin 2) = q.val ∧ win1_8.index t (1 : Fin 2) = 0 :=
  (by decide +kernel : ∀ q : Fin 20, ∃ t : Fin grid1.N, win1_8.index t (0 : Fin 2) = q.val ∧ win1_8.index t (1 : Fin 2) = 0)

/-- The aggregate's block at point `t` is its rows `5000 t … 5000 t + 4999`. -/
theorem blk0_apply (t : Fin cfg1.N) (p : Fin 5000) (k : Fin 128) (h : t.val * 5000 + p.val < 100000) :
    (iblk1 V c 0 t : Vec Ideal S5000x128 .f32) (ix2 p k) = (V c main_v37 : S100000x128.Idx → EReal) (ix2 ⟨t.val * 5000 + p.val, h⟩ k) := by
  obtain ⟨⟨e0, e1⟩, -⟩ := idx_facts1 t
  unfold iblk1
  rw [View.read_apply]
  show V c main_v37 _ = V c main_v37 _
  congr 1
  funext a
  apply Fin.ext
  match a with
  | ⟨0, _⟩ => show win1_0.index t 0 * 5000 + 1 * p.val = t.val * 5000 + p.val; rw [e0]; omega
  | ⟨1, _⟩ => show win1_0.index t 1 * 128 + 1 * k.val = k.val; rw [e1]; omega

/-- The reciprocal counts' block at point `t` is its rows `5000 t … 5000 t + 4999`. -/
theorem blk1_apply (t : Fin cfg1.N) (p : Fin 5000) (q : Fin 1) (h : t.val * 5000 + p.val < 100000) :
    (iblk1 V c 1 t : Vec Ideal S5000x1 .f32) (ix2 p q) = (V c main_v14 : S100000x1.Idx → EReal) (ix2 ⟨t.val * 5000 + p.val, h⟩ q) := by
  obtain ⟨-, ⟨e0, e1⟩, -⟩ := idx_facts1 t
  unfold iblk1
  rw [View.read_apply]
  show V c main_v14 _ = V c main_v14 _
  congr 1
  funext a
  apply Fin.ext
  match a with
  | ⟨0, _⟩ => show win1_1.index t 0 * 5000 + 1 * p.val = t.val * 5000 + p.val; rw [e0]; omega
  | ⟨1, _⟩ => show win1_1.index t 1 * 1 + 1 * q.val = q.val; rw [e1]; omega

/-- The first layer's block at point `t` is its rows `5000 t … 5000 t + 4999`. -/
theorem blk2_apply (t : Fin cfg1.N) (p : Fin 5000) (k : Fin 128) (h : t.val * 5000 + p.val < 100000) :
    (iblk1 V c 2 t : Vec Ideal S5000x128 .f32) (ix2 p k) = (V c main_v25 : S100000x128.Idx → EReal) (ix2 ⟨t.val * 5000 + p.val, h⟩ k) := by
  obtain ⟨-, -, ⟨e0, e1⟩, -⟩ := idx_facts1 t
  unfold iblk1
  rw [View.read_apply]
  show V c main_v25 _ = V c main_v25 _
  congr 1
  funext a
  apply Fin.ext
  match a with
  | ⟨0, _⟩ => show win1_2.index t 0 * 5000 + 1 * p.val = t.val * 5000 + p.val; rw [e0]; omega
  | ⟨1, _⟩ => show win1_2.index t 1 * 128 + 1 * k.val = k.val; rw [e1]; omega

/-- A whole-array window's block is the array, at every point: the mean's weight, -/
theorem blk3_apply (t : Fin cfg1.N) (k j : Fin 128) :
    (iblk1 V c 3 t : Vec Ideal S128x128 .f32) (ix2 k j) = (V c main_arg5 : S128x128.Idx → EReal) (ix2 k j) := by
  obtain ⟨-, -, -, ⟨e0, e1⟩, -⟩ := idx_facts1 t
  unfold iblk1
  rw [View.read_apply]
  show V c main_arg5 _ = V c main_arg5 _
  congr 1
  funext a
  apply Fin.ext
  match a with
  | ⟨0, _⟩ => show win1_3.index t 0 * 128 + 1 * k.val = k.val; rw [e0]; omega
  | ⟨1, _⟩ => show win1_3.index t 1 * 128 + 1 * j.val = j.val; rw [e1]; omega

/-- the bias, -/
theorem blk4_apply (t : Fin cfg1.N) (j : Fin 128) :
    (iblk1 V c 4 t : Vec Ideal S128 .f32) (ix1 j) = (V c main_arg6 : S128.Idx → EReal) (ix1 j) := by
  obtain ⟨-, -, -, -, e0, -⟩ := idx_facts1 t
  unfold iblk1
  rw [View.read_apply]
  show V c main_arg6 _ = V c main_arg6 _
  congr 1
  funext a
  apply Fin.ext
  match a with
  | ⟨0, _⟩ => show win1_4.index t 0 * 128 + 1 * j.val = j.val; rw [e0]; omega

/-- the root's weight, -/
theorem blk5_apply (t : Fin cfg1.N) (k j : Fin 128) :
    (iblk1 V c 5 t : Vec Ideal S128x128 .f32) (ix2 k j) = (V c main_arg7 : S128x128.Idx → EReal) (ix2 k j) := by
  obtain ⟨-, -, -, -, -, ⟨e0, e1⟩, -⟩ := idx_facts1 t
  unfold iblk1
  rw [View.read_apply]
  show V c main_arg7 _ = V c main_arg7 _
  congr 1
  funext a
  apply Fin.ext
  match a with
  | ⟨0, _⟩ => show win1_5.index t 0 * 128 + 1 * k.val = k.val; rw [e0]; omega
  | ⟨1, _⟩ => show win1_5.index t 1 * 128 + 1 * j.val = j.val; rw [e1]; omega

/-- the head's weight, -/
theorem blk6_apply (t : Fin cfg1.N) (j : Fin 128) (q : Fin 1) :
    (iblk1 V c 6 t : Vec Ideal S128x1 .f32) (ix2 j q) = (V c main_arg8 : S128x1.Idx → EReal) (ix2 j q) := by
  obtain ⟨-, -, -, -, -, -, ⟨e0, e1⟩, -⟩ := idx_facts1 t
  unfold iblk1
  rw [View.read_apply]
  show V c main_arg8 _ = V c main_arg8 _
  congr 1
  funext a
  apply Fin.ext
  match a with
  | ⟨0, _⟩ => show win1_6.index t 0 * 128 + 1 * j.val = j.val; rw [e0]; omega
  | ⟨1, _⟩ => show win1_6.index t 1 * 1 + 1 * q.val = q.val; rw [e1]; omega

/-- and the head's bias. -/
theorem blk7_apply (t : Fin cfg1.N) (q : Fin 1) :
    (iblk1 V c 7 t : Vec Ideal S1 .f32) (ix1 q) = (V c main_arg9 : S1.Idx → EReal) (ix1 q) := by
  obtain ⟨-, -, -, -, -, -, -, e0, -⟩ := idx_facts1 t
  unfold iblk1
  rw [View.read_apply]
  show V c main_arg9 _ = V c main_arg9 _
  congr 1
  funext a
  apply Fin.ext
  match a with
  | ⟨0, _⟩ => show win1_7.index t 0 * 1 + 1 * q.val = q.val; rw [e0]; omega

/-- The body's result at row `p` of point `t`'s blocks is the network's at row `5000 t + p`. -/
theorem point_eq (t : Fin cfg1.N) (p : Fin 5000) (q : Fin 1) (h : t.val * 5000 + p.val < 100000) :
    k1_pay1 (iblk1 V c 0 t) (iblk1 V c 1 t) (iblk1 V c 3 t) (iblk1 V c 2 t) (iblk1 V c 5 t) (iblk1 V c 4 t) (iblk1 V c 6 t) (iblk1 V c 7 t) (ix2 p q)
      = headOf V c (ix2 ⟨t.val * 5000 + p.val, h⟩ q) := by
  refine (pay1_apply (iblk1 V c 0 t) (iblk1 V c 1 t) (iblk1 V c 3 t) (iblk1 V c 2 t) (iblk1 V c 5 t) (iblk1 V c 4 t) (iblk1 V c 6 t) (iblk1 V c 7 t) p q).trans ?_
  simp only [blk0_apply V c t _ _ h, blk1_apply V c t _ _ h, blk2_apply V c t _ _ h, blk3_apply, blk4_apply, blk5_apply, blk6_apply, blk7_apply]
  rfl

/-- What point `t` writes back is block `t` of the network's output. -/
theorem flushed8_eq (t : Fin cfg1.N) :
    (dat1 (F := Ideal) V c).flushed 8 t = ((cfg1.win 8).blk t).view.read (Elt Ideal) (headOf V c) := by
  obtain ⟨-, -, -, -, -, -, -, -, ⟨e0, e1⟩, ht⟩ := idx_facts1 t
  show (cfg1.win 8).cut (grid1.coords t) ((dat1 V c).after 8 t) = _
  rw [after1_8]
  unfold out1_8
  rw [View.canon_unit_zero hz2]
  simp only [View.ld_unit_zero (S := S5000x128) hz2, View.ld_unit_zero (S := S5000x1) hz2, View.ld_unit_zero (S := S128x128) hz2,
    View.ld_unit_zero (S := S128) hz1, View.ld_unit_zero (S := S128x1) hz2, View.ld_unit_zero (S := S1) hz1]
  funext j
  have hj : (j 0).val < 5000 := (j 0).isLt
  have hlt : t.val * 5000 + (j 0).val < 100000 := by omega
  have hemb : ((cfg1.win 8).blk t).view.emb j = ix2 (⟨t.val * 5000 + (j 0).val, hlt⟩ : Fin 100000) (j 1) := by
    funext a; apply Fin.ext
    match a with
    | ⟨0, _⟩ => show win1_8.index t 0 * 5000 + 1 * (j 0).val = t.val * 5000 + (j 0).val; rw [e0]; omega
    | ⟨1, _⟩ => show win1_8.index t 1 * 1 + 1 * (j 1).val = (j 1).val; rw [e1]; omega
  show k1_pay1 (iblk1 V c 0 t) (iblk1 V c 1 t) (iblk1 V c 3 t) (iblk1 V c 2 t) (iblk1 V c 5 t) (iblk1 V c 4 t) (iblk1 V c 6 t) (iblk1 V c 7 t) j
    = headOf V c (((cfg1.win 8).blk t).view.emb j)
  rw [hemb]
  exact (congrArg (k1_pay1 (iblk1 V c 0 t) (iblk1 V c 1 t) (iblk1 V c 3 t) (iblk1 V c 2 t) (iblk1 V c 5 t) (iblk1 V c 4 t) (iblk1 V c 6 t) (iblk1 V c 7 t)) (eq_ix2 j)).trans
    (point_eq V c t (j 0) (j 1) hlt)

/-- An index of the output is in point `t`'s block iff each coordinate is in the block's range on its axis. -/
theorem mem_blk8 (t : Fin cfg1.N) (i : S100000x1.Idx) :
    i ∈ ((cfg1.win 8).blk t).view.set ↔ ∀ a : Fin 2, win1_8.index t a * S5000x1.size a ≤ (i a).val ∧ (i a).val < win1_8.index t a * S5000x1.size a + S5000x1.size a := by
  show i ∈ ((View.whole main_v38).slice (win1_8.rect t)).set ↔ _
  rw [View.set_slice_whole, Rect.mem_set_unit]
  exact Iff.rfl

/-- Every row of the output is in the block of the point `row / 5000`. -/
theorem cover8 (i : S100000x1.Idx) : ∃ t : Fin cfg1.N, (cfg1.win 8).flush t = true ∧ i ∈ ((cfg1.win 8).blk t).view.set := by
  have hi0 : (i 0).val < 100000 := (i 0).isLt
  have hi1 : (i 1).val < 1 := (i 1).isLt
  obtain ⟨t, q0, q1⟩ := idx_onto1 ⟨(i 0).val / 5000, by omega⟩
  refine ⟨t, flush1_8 t, ?_⟩
  rw [mem_blk8]
  intro a
  match a with
  | ⟨0, _⟩ => show win1_8.index t (0 : Fin 2) * 5000 ≤ (i 0).val ∧ (i 0).val < win1_8.index t (0 : Fin 2) * 5000 + 5000; rw [q0]; show (i 0).val / 5000 * 5000 ≤ (i 0).val ∧ (i 0).val < (i 0).val / 5000 * 5000 + 5000; omega
  | ⟨1, _⟩ => show win1_8.index t (1 : Fin 2) * 1 ≤ (i 1).val ∧ (i 1).val < win1_8.index t (1 : Fin 2) * 1 + 1; rw [q1]; omega

end

end R1

/-- Region 1's output array after the run: the second SAGE layer and the linear head of the arrays the region is entered with. -/
theorem region1_value (V : (c : Dev nD) → (b : Ref sig .tc) → Buf (Elt Ideal) ((c : Thread nD τ).loc b)) (c : Dev nD) :
    (dat1 (F := Ideal) V c).arrAt 8 cfg1.N
      = Sage.head (Sage.layer (Sage.meanMul (V c main_v37) (V c main_v14)) (V c main_v25) (V c main_arg5) (V c main_arg7) (V c main_arg6))
          (V c main_arg8) (V c main_arg9) :=
  (dat1 (F := Ideal) V c).arrAt_eq_of_cover 8 (R1.headOf V c) (fun t _ => R1.flushed8_eq V c t) R1.cover8

end Cert.KernelIdeal.KVal

end
-- ==== Proof.LibScatterVec.lean ====
/-
  The accumulating scatter of a vector read at an index.

  Updates `[E]` are added into a vector `[N]` at start indices `[E, 1]`: update `e` goes to the entry its index word
  names, read as a signed integer and NOT clamped, so a word outside `[0, N)` drops the update.  Stated for any extents.
-/
import Idealize.ShloMosaic.Lib.ValueIdx
import Idealize.ShloMosaic.PureOps.Ideal

noncomputable section

namespace LibScatterVec

open Idealize.ShloMosaic Idealize.ShloMosaic.ValueIdx

/-- The dimension numbers of the accumulating scatter of a vector: update `e` goes to the entry its index word names. -/
abbrev scatVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vec_start0 (idx : IVec ⟨2, ![E, 1]⟩ w) (e : Fin E) :
    (scatVecDims N E wf).start (ix1 e) idx 0 = (idx (ix2 e (0 : Fin 1))).toInt := by
  unfold ScatterDims.start
  rw [dif_pos (show (0 : Fin 1) ∈ (scatVecDims N E wf).scatterDimsToOperandDims from List.mem_singleton.mpr rfl)]
  have hsi : (scatVecDims N E wf).siIdx (ix1 e) ⟨List.idxOf (0 : Fin 1) (scatVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vec_window0 (e : Fin E) : (scatVecDims N E wf).window (ix1 e) 0 = 0 := by
  unfold ScatterDims.window
  rw [dif_neg]
  intro h
  have : (0 : Fin 1) ∈ (⟨1, ![N]⟩ : Shape).kept [0] := h
  simp [Shape.kept] at this

/-- Update `e` lands on entry `n` exactly when its index word, read signed, is `n`. -/
theorem scatter_vec_resultIdx (idx : IVec ⟨2, ![E, 1]⟩ w) (e : Fin E) (n : Fin N) :
    (scatVecDims N E wf).resultIdx? (ix1 e) idx = some (ix1 n) ↔ (idx (ix2 e (0 : Fin 1))).toInt = (n.val : ℤ) := by
  unfold ScatterDims.resultIdx?
  constructor
  · intro h
    split at h
    · rename_i hall
      have h' := Option.some.inj h
      have h0 := congrArg (fun f => (f 0).val) h'
      simp only [vec_start0, vec_window0] at h0
      have hb := hall 0
      simp only [vec_start0, vec_window0] at hb
      have : ((idx (ix2 e (0 : Fin 1))).toInt + ((0 : Nat) : ℤ)).toNat = n.val := h0
      omega
    · exact absurd h (by simp)
  · intro hn
    have hall : ∀ a, 0 ≤ (scatVecDims N E wf).start (ix1 e) idx a + (scatVecDims N E wf).window (ix1 e) a ∧
        (scatVecDims N E wf).start (ix1 e) idx a + (scatVecDims N E wf).window (ix1 e) a < (⟨1, ![N]⟩ : Shape).size a := by
      intro a
      match a with
      | ⟨0, _⟩ =>
        show 0 ≤ (scatVecDims N E wf).start (ix1 e) idx 0 + ((scatVecDims N E wf).window (ix1 e) 0 : ℤ) ∧
          (scatVecDims N E wf).start (ix1 e) idx 0 + ((scatVecDims N E wf).window (ix1 e) 0 : ℤ) < (N : ℤ)
        rw [vec_start0, vec_window0, hn]; have := n.isLt; omega
    rw [dif_pos hall]
    congr 1
    funext a
    refine Fin.ext ?_
    match a with
    | ⟨0, _⟩ =>
      show ((scatVecDims N E wf).start (ix1 e) idx 0 + ((scatVecDims N E wf).window (ix1 e) 0 : ℤ)).toNat = n.val
      rw [vec_start0, vec_window0, hn]; omega

/-- THE ACCUMULATING SCATTER OF A VECTOR READ AT `n`, on the extended reals: the operand's entry plus the sum, over the
    updates whose index word read signed is `n`, of the update. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (scatVecDims N E wf) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  have key : ∀ j : (⟨1, ![E]⟩ : Shape).Idx, (scatVecDims N E wf).resultIdx? j idx = some (ix1 n) →
      (idx (ix2 (⟨(j 0).val, (j 0).isLt⟩ : Fin E) (0 : Fin 1))).toInt = (n.val : ℤ) := by
    intro j hj
    rw [eq_ix1 j] at hj
    exact (scatter_vec_resultIdx wf idx (⟨(j 0).val, (j 0).isLt⟩ : Fin E) n).mp hj
  refine Finset.sum_bij' (fun j _ => (⟨(j 0).val, (j 0).isLt⟩ : Fin E)) (fun e _ => ix1 e) ?_ ?_ ?_ ?_ ?_
  · intro j hj
    exact Finset.mem_filter.mpr ⟨Finset.mem_univ _, key j (Finset.mem_filter.mp hj).2⟩
  · intro e he
    exact Finset.mem_filter.mpr ⟨Finset.mem_univ _,
      (scatter_vec_resultIdx wf idx e n).mpr (Finset.mem_filter.mp he).2⟩
  · intro j _
    exact (eq_ix1 j).symm
  · intro e _; rfl
  · intro j _
    exact congrArg upd (eq_ix1 j)

end LibScatterVec

end
-- ==== Proof.HostAgg.lean ====
/-
  The host's gather and accumulating scatters as sums over the edges.

  Scattering the gathered rows `X[src]` into zeros at the destinations gives, at node `n`, the sum over the edges
  landing on `n` of their source rows.  Scattering ones into zeros and taking the maximum with one gives the count.
-/
import proofs.«415709_j17952963297293_4_alg».proof.Proof.Spec
import proofs.«415709_j17952963297293_4_alg».proof.Proof.LibGatherScatter
import proofs.«415709_j17952963297293_4_alg».proof.Proof.LibScatterVec

noncomputable section

namespace HostAgg

open Idealize.ShloMosaic Idealize.ShloMosaic.ValueIdx LibGatherScatter LibScatterVec

/-- The accumulating scatter, into zeros, of the gathered rows is the aggregate over the edges. -/
theorem agg_rows {N E D w : Nat} (hN : 0 < N)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (z : Sage.Mat N D) (hz : ∀ i, z i = 0) (X : Sage.Mat N D) (idxD idxS : IVec ⟨2, ![E, 1]⟩ w) :
    Host.scatterAdd (F := Ideal) (φ := .f32) (scatRowsDims N E D wfS) z idxD (Host.gather (rowsDims N E D wfG) X idxS)
      = Sage.aggOf (fun e => (idxD (ix2 e (0 : Fin 1))).toInt) (fun e => clampRow N hN (idxS (ix2 e (0 : Fin 1)))) X := by
  funext i
  obtain ⟨n, d, rfl⟩ : ∃ (n : Fin N) (d : Fin D), i = ix2 n d := ⟨i 0, i 1, eq_ix2 i⟩
  show Ideal.hostScatterAdd (scatRowsDims N E D wfS) z idxD (Host.gather (rowsDims N E D wfG) X idxS) (ix2 n d) = _
  rw [scatterAdd_rows_apply wfS z idxD _ n d, hz]
  unfold Sage.aggOf Sage.segSum
  refine congrArg (0 + ·) (Finset.sum_congr rfl fun e _ => ?_)
  exact gather_rows_apply hN wfG X idxS e d

/-- The accumulating scatter of ones into zeros, raised to at least one, is the count over the edges. -/
theorem cnt_vec {N E w : Nat} (wfS : ScatterDims.WF ⟨1, ![N]⟩ ⟨2, ![E, 1]⟩ ⟨1, ![E]⟩ [] [0] [0] 1)
    (z : Sage.Vect N) (hz : ∀ i, z i = 0) (ones : Sage.Vect E) (ho : ∀ i, ones i = 1) (one' : Sage.Vect N) (ho' : ∀ i, one' i = 1)
    (idxD : IVec ⟨2, ![E, 1]⟩ w) :
    maximumf (F := Ideal) (φ := .f32) (Host.scatterAdd (F := Ideal) (φ := .f32) (scatVecDims N E wfS) z idxD ones) one'
      = Sage.cntOf N (fun e => (idxD (ix2 e (0 : Fin 1))).toInt) := by
  funext i
  obtain ⟨n, rfl⟩ : ∃ n : Fin N, i = ix1 n := ⟨i 0, eq_ix1 i⟩
  show max (Ideal.hostScatterAdd (scatVecDims N E wfS) z idxD ones (ix1 n)) (one' (ix1 n)) = _
  rw [scatterAdd_vec_apply wfS z idxD ones n, hz, ho']
  unfold Sage.cntOf Sage.segSum
  refine congrArg (fun s => max (0 + s) 1) (Finset.sum_congr rfl fun e _ => ?_)
  exact ho _

end HostAgg

end
-- ==== Proof.KernelHost5.lean ====
import proofs.«415709_j17952963297293_4_alg».proof.Proof.Gen.KernelIdeal.Frame
import proofs.«415709_j17952963297293_4_alg».proof.Proof.Spec
import proofs.«415709_j17952963297293_4_alg».proof.Proof.Edges
import proofs.«415709_j17952963297293_4_alg».proof.Proof.HostAgg
import Idealize.ShloMosaic.Lib.Pipeline.Value
import Idealize.ShloMosaic.Lib.KernelVsHost
import Idealize.ShloMosaic.Lib.ValueIdx
import Idealize.ShloMosaic.Lib.StableHlo.Run
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A stretch of host operations none of which writes a buffer leaves that buffer as it was. -/
local macro "skip_stretch" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (by decide))))

/-! ## The edge rows and their padded copies, boundary by boundary -/

/-- After the first stretch: the source row of the edge array, as a vector. -/
theorem H5_W1_v1 (c : Dev nD) :
    (W1 (F := Ideal) m ρ c (Proc.devRef .tc main_v1) : (⟨S2000000, .i32⟩ : BufTy).Contents (Elt Ideal))
      = shapeCast S2000000 (extractStridedSlice S1x2000000 ![0, 0] (m ((c : Thread nD τ).loc main_arg1))
          slices_S2x2000000_S1x2000000_0_0) shapeCasts_S1x2000000_S2000000 := by
  show StableHlo.after hostOps0 (W0 m ρ c) (Proc.devRef .tc main_v1) = _
  after_results
  rfl

/-- After the first stretch: the destination row of the edge array, as a vector. -/
theorem H5_W1_v3 (c : Dev nD) :
    (W1 (F := Ideal) m ρ c (Proc.devRef .tc main_v3) : (⟨S2000000, .i32⟩ : BufTy).Contents (Elt Ideal))
      = shapeCast S2000000 (extractStridedSlice S1x2000000 ![1, 0] (m ((c : Thread nD τ).loc main_arg1))
          slices_S2x2000000_S1x2000000_1_0) shapeCasts_S1x2000000_S2000000 := by
  show StableHlo.after hostOps0 (W0 m ρ c) (Proc.devRef .tc main_v3) = _
  after_results
  rfl

/-- After the first stretch: the sources' pad word. -/
theorem H5_W1_c (c : Dev nD) :
    (W1 (F := Ideal) m ρ c (Proc.devRef .tc main_c) : (⟨S_, .i32⟩ : BufTy).Contents (Elt Ideal)) = constantI S_ 32 0#32 := by
  show StableHlo.after hostOps0 (W0 m ρ c) (Proc.devRef .tc main_c) = _
  after_results

/-- The source row read at an edge. -/
theorem H5_W1_v1_apply (c : Dev nD) (e : Fin 2000000) :
    (W1 (F := Ideal) m ρ c (Proc.devRef .tc main_v1) : (⟨S2000000, .i32⟩ : BufTy).Contents (Elt Ideal)) (ix1 e)
      = m ((c : Thread nD τ).loc main_arg1) (ix2 (0 : Fin 2) e) := by
  rw [H5_W1_v1]
  generalize m ((c : Thread nD τ).loc main_arg1) = x
  refine (shapeCast_apply _ shapeCasts_S1x2000000_S2000000 (ix1 e) (ix2 (0 : Fin 1) e) (by
    rw [Shape.rowMajor_val_two, Shape.rowMajor_val_one]; show 0 * 2000000 + e.val = e.val; omega)).trans ?_
  exact extractStridedSlice_apply ![0, 0] x slices_S2x2000000_S1x2000000_0_0 (ix2 (0 : Fin 1) e) (ix2 (0 : Fin 2) e)
    (fun a => match a with
      | ⟨0, _⟩ => rfl
      | ⟨1, _⟩ => by show e.val = 0 + e.val; omega)

/-- The destination row read at an edge. -/
theorem H5_W1_v3_apply (c : Dev nD) (e : Fin 2000000) :
    (W1 (F := Ideal) m ρ c (Proc.devRef .tc main_v3) : (⟨S2000000, .i32⟩ : BufTy).Contents (Elt Ideal)) (ix1 e)
      = m ((c : Thread nD τ).loc main_arg1) (ix2 (1 : Fin 2) e) := by
  rw [H5_W1_v3]
  generalize m ((c : Thread nD τ).loc main_arg1) = x
  refine (shapeCast_apply _ shapeCasts_S1x2000000_S2000000 (ix1 e) (ix2 (0 : Fin 1) e) (by
    rw [Shape.rowMajor_val_two, Shape.rowMajor_val_one]; show 0 * 2000000 + e.val = e.val; omega)).trans ?_
  exact extractStridedSlice_apply ![1, 0] x slices_S2x2000000_S1x2000000_1_0 (ix2 (0 : Fin 1) e) (ix2 (1 : Fin 2) e)
    (fun a => match a with
      | ⟨0, _⟩ => rfl
      | ⟨1, _⟩ => by show e.val = 0 + e.val; omega)

/-- A vector padded at its end, read at an entry: the vector inside, the pad word after. -/
theorem H5_pad_end_apply {E E' P : Nat} (x : (⟨1, ![E]⟩ : Shape).Idx → BitVec 32) (v : S_.Idx → BitVec 32)
    (h : (⟨1, ![E]⟩ : Shape).Pads (![0] : Fin 1 → Nat) ![P] ![0] ⟨1, ![E']⟩) (hu : 0 < S_.numel) (e : Fin E') :
    pad ⟨1, ![E']⟩ ![0] ![P] ![0] x v h hu (ix1 e) = Edges.padW E' (fun e => x (ix1 e)) (v ix0) e := by
  unfold Edges.padW
  by_cases he : e.val < E
  · rw [dif_pos he]
    exact pad_apply_of_inside _ _ _ x v h hu (ix1 e) (ix1 ⟨e.val, he⟩) (fun a => match a with
      | ⟨0, _⟩ => by show e.val = 0 + e.val * (0 + 1); omega)
  · rw [dif_neg he]
    rw [pad_apply_of_not_inside _ _ _ x v h hu (ix1 e) (0 : Fin 1) (by
      show ¬(0 ≤ e.val ∧ (e.val - 0) % (0 + 1) = 0 ∧ (e.val - 0) / (0 + 1) < E)
      intro h3; apply he; have := h3.2.2; simpa using this)]
    exact congrArg v (eq_ix0 _)

/-- The second stretch pads the source row with the word it finds at the pad-word buffer. -/
theorem H5_after1_v4 (V : Valuation τ sig (Elt Ideal)) :
    (StableHlo.after hostOps0_1 V (Proc.devRef .tc main_v4) : (⟨S2002944, .i32⟩ : BufTy).Contents (Elt Ideal))
      = pad S2002944 ![0] ![2944] ![0] (V (Proc.devRef .tc main_v1) : (⟨S2000000, .i32⟩ : BufTy).Contents (Elt Ideal))
          (V (Proc.devRef .tc main_c) : (⟨S_, .i32⟩ : BufTy).Contents (Elt Ideal)) pads_S2000000_S2002944_029440 h_S_ := by
  after_results
  rfl

/-- The fourth stretch pads the destination row with the word it finds at the pad-word buffer. -/
theorem H5_after3_v5 (V : Valuation τ sig (Elt Ideal)) :
    (StableHlo.after hostOps0_3 V (Proc.devRef .tc main_v5) : (⟨S2002944, .i32⟩ : BufTy).Contents (Elt Ideal))
      = pad S2002944 ![0] ![2944] ![0] (V (Proc.devRef .tc main_v3) : (⟨S2000000, .i32⟩ : BufTy).Contents (Elt Ideal))
          (V (Proc.devRef .tc main_c_0) : (⟨S_, .i32⟩ : BufTy).Contents (Elt Ideal)) pads_S2000000_S2002944_029440 h_S_ := by
  after_results
  rfl

/-- The third stretch writes the destinations' pad word. -/
theorem H5_after2_c0 (V : Valuation τ sig (Elt Ideal)) :
    (StableHlo.after hostOps0_2 V (Proc.devRef .tc main_c_0) : (⟨S_, .i32⟩ : BufTy).Contents (Elt Ideal)) = constantI S_ 32 100000#32 := by
  after_results

/-- At the region's entry the padded sources are the pad of the source row. -/
theorem H5_W5_v4 (c : Dev nD) :
    (W5 (F := Ideal) m ρ c (Proc.devRef .tc main_v4) : (⟨S2002944, .i32⟩ : BufTy).Contents (Elt Ideal))
      = pad S2002944 ![0] ![2944] ![0] (W1 (F := Ideal) m ρ c (Proc.devRef .tc main_v1) : (⟨S2000000, .i32⟩ : BufTy).Contents (Elt Ideal))
          (W1 (F := Ideal) m ρ c (Proc.devRef .tc main_c) : (⟨S_, .i32⟩ : BufTy).Contents (Elt Ideal)) pads_S2000000_S2002944_029440 h_S_ :=
  calc W5 (F := Ideal) m ρ c (Proc.devRef .tc main_v4)
    _ = W4 m ρ c (Proc.devRef .tc main_v4) := by skip_stretch hostOps0_4
    _ = W3 m ρ c (Proc.devRef .tc main_v4) := by skip_stretch hostOps0_3
    _ = W2 m ρ c (Proc.devRef .tc main_v4) := by skip_stretch hostOps0_2
    _ = _ := H5_after1_v4 (W1 m ρ c)

/-- Before the fourth stretch the destination row is as the first stretch left it. -/
theorem H5_W3_v3 (c : Dev nD) :
    W3 (F := Ideal) m ρ c (Proc.devRef .tc main_v3) = W1 (F := Ideal) m ρ c (Proc.devRef .tc main_v3) :=
  calc W3 (F := Ideal) m ρ c (Proc.devRef .tc main_v3)
    _ = W2 m ρ c (Proc.devRef .tc main_v3) := by skip_stretch hostOps0_2
    _ = W1 m ρ c (Proc.devRef .tc main_v3) := by skip_stretch hostOps0_1

/-- At the fourth stretch's entry the padded destinations are the pad of the destination row. -/
theorem H5_W4_v5 (c : Dev nD) :
    (W4 (F := Ideal) m ρ c (Proc.devRef .tc main_v5) : (⟨S2002944, .i32⟩ : BufTy).Contents (Elt Ideal))
      = pad S2002944 ![0] ![2944] ![0] (W1 (F := Ideal) m ρ c (Proc.devRef .tc main_v3) : (⟨S2000000, .i32⟩ : BufTy).Contents (Elt Ideal))
          (constantI S_ 32 100000#32) pads_S2000000_S2002944_029440 h_S_ := by
  refine (H5_after3_v5 (W3 m ρ c)).trans ?_
  rw [H5_W3_v3]
  exact congrArg (fun v => pad S2002944 ![0] ![2944] ![0] (W1 (F := Ideal) m ρ c (Proc.devRef .tc main_v3) : (⟨S2000000, .i32⟩ : BufTy).Contents (Elt Ideal)) v pads_S2000000_S2002944_029440 h_S_)
    (H5_after2_c0 (W2 m ρ c))

/-- The padded sources at the fifth stretch's entry, read at an edge. -/
theorem H5_W4_v4_apply (c : Dev nD) (e : Fin 2002944) :
    (W4 (F := Ideal) m ρ c (Proc.devRef .tc main_v4) : (⟨S2002944, .i32⟩ : BufTy).Contents (Elt Ideal)) (ix1 e)
      = Edges.kSrcW (m ((c : Thread nD τ).loc main_arg1)) e := by
  have h4 : (W4 (F := Ideal) m ρ c (Proc.devRef .tc main_v4) : (⟨S2002944, .i32⟩ : BufTy).Contents (Elt Ideal))
      = W5 (F := Ideal) m ρ c (Proc.devRef .tc main_v4) := Eq.symm (by skip_stretch hostOps0_4)
  rw [h4]
  refine (congrFun (H5_W5_v4 m ρ c) (ix1 e)).trans ?_
  refine (H5_pad_end_apply _ _ pads_S2000000_S2002944_029440 h_S_ e).trans ?_
  rw [H5_W1_c]
  exact congrArg (fun f => Edges.padW 2002944 f 0#32 e) (funext fun e' => H5_W1_v1_apply m ρ c e')

/-- The padded destinations at the fifth stretch's entry, read at an edge. -/
theorem H5_W4_v5_apply (c : Dev nD) (e : Fin 2002944) :
    (W4 (F := Ideal) m ρ c (Proc.devRef .tc main_v5) : (⟨S2002944, .i32⟩ : BufTy).Contents (Elt Ideal)) (ix1 e)
      = Edges.kDstW (m ((c : Thread nD τ).loc main_arg1)) e := by
  refine (congrFun (H5_W4_v5 m ρ c) (ix1 e)).trans ?_
  refine (H5_pad_end_apply _ _ pads_S2000000_S2002944_029440 h_S_ e).trans ?_
  exact congrArg (fun f => Edges.padW 2002944 f 100000#32 e) (funext fun e' => H5_W1_v3_apply m ρ c e')

/-- The padded source words, as region 0 finds them. -/
theorem V5_src (c : Dev nD) (e : Fin 2002944) :
    V5 (F := Ideal) m ρ c main_v4 (ix1 e) = Edges.kSrcW (m ((c : Thread nD τ).loc main_arg1)) e := by
  have h4 : (W5 (F := Ideal) m ρ c (Proc.devRef .tc main_v4) : (⟨S2002944, .i32⟩ : BufTy).Contents (Elt Ideal))
      = W4 (F := Ideal) m ρ c (Proc.devRef .tc main_v4) := by skip_stretch hostOps0_4
  exact (congrFun h4 (ix1 e)).trans (H5_W4_v4_apply m ρ c e)

/-- The padded destination words, as region 0 finds them. -/
theorem V5_dst (c : Dev nD) (e : Fin 2002944) :
    V5 (F := Ideal) m ρ c main_v5 (ix1 e) = Edges.kDstW (m ((c : Thread nD τ).loc main_arg1)) e := by
  have h5 : (W5 (F := Ideal) m ρ c (Proc.devRef .tc main_v5) : (⟨S2002944, .i32⟩ : BufTy).Contents (Elt Ideal))
      = W4 (F := Ideal) m ρ c (Proc.devRef .tc main_v5) := by skip_stretch hostOps0_4
  exact (congrFun h5 (ix1 e)).trans (H5_W4_v5_apply m ρ c e)

/-! ## The fifth stretch: the counts, their reciprocals and the first aggregate -/

/-- What the fifth stretch leaves at the aggregate's buffer, over what it finds. -/
theorem H5_after4_v24 (V : Valuation τ sig (Elt Ideal)) :
    (StableHlo.after hostOps0_4 V (Proc.devRef .tc main_v24) : (⟨S100000x6, .f32⟩ : BufTy).Contents (Elt Ideal))
      = Host.scatterAdd (F := Ideal) (φ := .f32) scatter_S100000x6_S2002944x1_S2002944x6_1_0_0_1
          (broadcastInDim S100000x6 ![] bcast_S_S100000x6 (constant (F := Ideal) S_ .f32 0x00000000#32))
          (broadcastInDim S2002944x1 ![0] bcast_S2002944_S2002944x1_0
            (V (Proc.devRef .tc main_v5) : (⟨S2002944, .i32⟩ : BufTy).Contents (Elt Ideal)))
          (Host.gather gather_S100000x6_S2002944x1_S2002944x6_1_0_n_n_0_1_16
            (V (Proc.devRef .tc main_arg0) : (⟨S100000x6, .f32⟩ : BufTy).Contents (Elt Ideal))
            (broadcastInDim S2002944x1 ![0] bcast_S2002944_S2002944x1_0
              (select
                (cmpi .slt (V (Proc.devRef .tc main_v4) : (⟨S2002944, .i32⟩ : BufTy).Contents (Elt Ideal))
                  (broadcastInDim S2002944 ![] bcast_S_S2002944 (constantI S_ 32 0#32)))
                (addi (V (Proc.devRef .tc main_v4) : (⟨S2002944, .i32⟩ : BufTy).Contents (Elt Ideal))
                  (broadcastInDim S2002944 ![] bcast_S_S2002944 (constantI S_ 32 100000#32)))
                (V (Proc.devRef .tc main_v4) : (⟨S2002944, .i32⟩ : BufTy).Contents (Elt Ideal))))) := by
  after_results_simp

/-- What the fifth stretch leaves at the reciprocal counts' buffer, over what it finds. -/
theorem H5_after4_v14 (V : Valuation τ sig (Elt Ideal)) :
    (StableHlo.after hostOps0_4 V (Proc.devRef .tc main_v14) : (⟨S100000x1, .f32⟩ : BufTy).Contents (Elt Ideal))
      = shapeCast S100000x1
          (Host.divf (F := Ideal) (φ := .f32) (broadcastInDim S100000 ![] bcast_S_S100000 (constant (F := Ideal) S_ .f32 0x3F800000#32))
            (maximumf (F := Ideal) (φ := .f32)
              (Host.scatterAdd (F := Ideal) (φ := .f32) scatter_S100000_S2002944x1_S2002944_n_0_0_1
                (broadcastInDim S100000 ![] bcast_S_S100000 (constant (F := Ideal) S_ .f32 0x00000000#32))
                (broadcastInDim S2002944x1 ![0] bcast_S2002944_S2002944x1_0
                  (V (Proc.devRef .tc main_v5) : (⟨S2002944, .i32⟩ : BufTy).Contents (Elt Ideal)))
                (broadcastInDim S2002944 ![] bcast_S_S2002944 (constant (F := Ideal) S_ .f32 0x3F800000#32)))
              (broadcastInDim S100000 ![] bcast_S_S100000 (constant (F := Ideal) S_ .f32 0x3F800000#32))))
          shapeCasts_S100000_S100000x1 := by
  after_results_simp
  rfl

/-- A vector laid as a one-column matrix, read at a row. -/
theorem H5_col_apply (x : (⟨S2002944, .i32⟩ : BufTy).Contents (Elt Ideal)) (e : Fin 2002944) :
    broadcastInDim S2002944x1 ![0] bcast_S2002944_S2002944x1_0 x (ix2 e (0 : Fin 1)) = x (ix1 e) :=
  broadcastInDim_apply ![0] bcast_S2002944_S2002944x1_0 x (ix2 e (0 : Fin 1)) (ix1 e) (fun a => match a with
    | ⟨0, _⟩ => by
      show e.val = if (2002944 : Nat) = 1 then 0 else e.val
      rw [if_neg (by decide)])

/-- The source column the gather reads: each word read the way array indexing reads it. -/
theorem H5_norm_col_apply (x : (⟨S2002944, .i32⟩ : BufTy).Contents (Elt Ideal)) (e : Fin 2002944) :
    broadcastInDim S2002944x1 ![0] bcast_S2002944_S2002944x1_0
        (select (cmpi .slt x (broadcastInDim S2002944 ![] bcast_S_S2002944 (constantI S_ 32 0#32)))
          (addi x (broadcastInDim S2002944 ![] bcast_S_S2002944 (constantI S_ 32 100000#32))) x) (ix2 e (0 : Fin 1))
      = Edges.norm 100000#32 (x (ix1 e)) := by
  rw [H5_col_apply]
  rfl

/-- The arguments the fifth stretch reads are as launched. -/
theorem H5_W4_arg0 (c : Dev nD) : W4 (F := Ideal) m ρ c (Proc.devRef .tc main_arg0) = m ((c : Thread nD τ).loc main_arg0) :=
  calc W4 (F := Ideal) m ρ c (Proc.devRef .tc main_arg0)
    _ = W3 m ρ c (Proc.devRef .tc main_arg0) := by skip_stretch hostOps0_3
    _ = W2 m ρ c (Proc.devRef .tc main_arg0) := by skip_stretch hostOps0_2
    _ = W1 m ρ c (Proc.devRef .tc main_arg0) := by skip_stretch hostOps0_1
    _ = W0 m ρ c (Proc.devRef .tc main_arg0) := by skip_stretch hostOps0
    _ = m ((c : Thread nD τ).loc main_arg0) := rfl

/-- The destination column the scatters read is the padded list's destinations. -/
theorem H5_dst_col (c : Dev nD) :
    (fun e : Fin 2002944 => (broadcastInDim S2002944x1 ![0] bcast_S2002944_S2002944x1_0
        (W4 (F := Ideal) m ρ c (Proc.devRef .tc main_v5) : (⟨S2002944, .i32⟩ : BufTy).Contents (Elt Ideal)) (ix2 e (0 : Fin 1))).toInt)
      = Edges.kDst (m ((c : Thread nD τ).loc main_arg1)) := by
  funext e
  rw [H5_col_apply, H5_W4_v5_apply]
  rfl

/-- The source column the gather reads is the padded list's source rows. -/
theorem H5_src_col (c : Dev nD) :
    (fun e : Fin 2002944 => LibGatherScatter.clampRow 100000 (by decide) (broadcastInDim S2002944x1 ![0] bcast_S2002944_S2002944x1_0
        (select (cmpi .slt (W4 (F := Ideal) m ρ c (Proc.devRef .tc main_v4) : (⟨S2002944, .i32⟩ : BufTy).Contents (Elt Ideal))
            (broadcastInDim S2002944 ![] bcast_S_S2002944 (constantI S_ 32 0#32)))
          (addi (W4 (F := Ideal) m ρ c (Proc.devRef .tc main_v4) : (⟨S2002944, .i32⟩ : BufTy).Contents (Elt Ideal))
            (broadcastInDim S2002944 ![] bcast_S_S2002944 (constantI S_ 32 100000#32)))
          (W4 (F := Ideal) m ρ c (Proc.devRef .tc main_v4) : (⟨S2002944, .i32⟩ : BufTy).Contents (Elt Ideal))) (ix2 e (0 : Fin 1))))
      = Edges.kRow (m ((c : Thread nD τ).loc main_arg1)) := by
  funext e
  rw [H5_norm_col_apply, H5_W4_v4_apply]
  rfl

/-- The first aggregate: the rows of `x` summed over the padded edge list. -/
theorem V5_agg1 (c : Dev nD) :
    V5 (F := Ideal) m ρ c main_v24
      = Sage.aggOf (Edges.kDst (m ((c : Thread nD τ).loc main_arg1))) (Edges.kRow (m ((c : Thread nD τ).loc main_arg1)))
          (m ((c : Thread nD τ).loc main_arg0)) := by
  refine (H5_after4_v24 (W4 m ρ c)).trans ?_
  rw [H5_W4_arg0]
  have hS : scatter_S100000x6_S2002944x1_S2002944x6_1_0_0_1
      = LibGatherScatter.scatRowsDims 100000 2002944 6 scatter_S100000x6_S2002944x1_S2002944x6_1_0_0_1_wf := rfl
  have hG : gather_S100000x6_S2002944x1_S2002944x6_1_0_n_n_0_1_16
      = LibGatherScatter.rowsDims 100000 2002944 6 gather_S100000x6_S2002944x1_S2002944x6_1_0_n_n_0_1_16_wf := rfl
  rw [hS, hG]
  refine (HostAgg.agg_rows (N := 100000) (E := 2002944) (D := 6) (by decide) _ _ _ (fun i => ?_) _ _ _).trans ?_
  · exact Ideal.ofBits_zero_f32
  · rw [H5_dst_col, H5_src_col]

/-- The splats the fifth stretch scatters into and scatters. -/
theorem H5_zeros_vec (i : S100000.Idx) :
    broadcastInDim S100000 ![] bcast_S_S100000 (constant (F := Ideal) S_ .f32 0x00000000#32) i = 0 := Ideal.ofBits_zero_f32
theorem H5_ones_vec (i : S100000.Idx) :
    broadcastInDim S100000 ![] bcast_S_S100000 (constant (F := Ideal) S_ .f32 0x3F800000#32) i = 1 := Sage.ofBits_one_f32
theorem H5_ones_edges (i : S2002944.Idx) :
    broadcastInDim S2002944 ![] bcast_S_S2002944 (constant (F := Ideal) S_ .f32 0x3F800000#32) i = 1 := Sage.ofBits_one_f32

/-- The count the fifth stretch computes, over the destination column it reads. -/
theorem H5_cnt_read (x : (⟨S2002944, .i32⟩ : BufTy).Contents (Elt Ideal)) :
    maximumf (F := Ideal) (φ := .f32)
        (Host.scatterAdd (F := Ideal) (φ := .f32) scatter_S100000_S2002944x1_S2002944_n_0_0_1
          (broadcastInDim S100000 ![] bcast_S_S100000 (constant (F := Ideal) S_ .f32 0x00000000#32))
          (broadcastInDim S2002944x1 ![0] bcast_S2002944_S2002944x1_0 x)
          (broadcastInDim S2002944 ![] bcast_S_S2002944 (constant (F := Ideal) S_ .f32 0x3F800000#32)))
        (broadcastInDim S100000 ![] bcast_S_S100000 (constant (F := Ideal) S_ .f32 0x3F800000#32))
      = Sage.cntOf 100000 (fun e : Fin 2002944 => (broadcastInDim S2002944x1 ![0] bcast_S2002944_S2002944x1_0 x (ix2 e (0 : Fin 1))).toInt) :=
  HostAgg.cnt_vec (N := 100000) (E := 2002944) scatter_S100000_S2002944x1_S2002944_n_0_0_1_wf
    _ H5_zeros_vec _ H5_ones_edges _ H5_ones_vec _

/-- The reciprocals of a count vector laid as a column. -/
theorem H5_recip_col (cnt : Sage.Vect 100000) :
    shapeCast S100000x1
        (Host.divf (F := Ideal) (φ := .f32) (broadcastInDim S100000 ![] bcast_S_S100000 (constant (F := Ideal) S_ .f32 0x3F800000#32)) cnt)
        shapeCasts_S100000_S100000x1
      = Sage.invOf cnt := by
  funext i
  refine (shapeCast_apply _ shapeCasts_S100000_S100000x1 i (ix1 ⟨(i 0).val, idx2_lt0 i⟩) (by
    rw [Shape.rowMajor_val_two, Shape.rowMajor_val_one]
    have h1 : (i 1).val < 1 := (i 1).isLt
    show (i 0).val = (i 0).val * 1 + (i 1).val; omega)).trans ?_
  show Ideal.div (Ideal.ofBits .f32 0x3F800000#32) (cnt (ix1 ⟨(i 0).val, idx2_lt0 i⟩)) = _
  rw [Sage.ofBits_one_f32]
  rfl

/-- The column of reciprocal counts. -/
theorem V5_inv (c : Dev nD) :
    V5 (F := Ideal) m ρ c main_v14 = Sage.invOf (Sage.cntOf 100000 (Edges.kDst (m ((c : Thread nD τ).loc main_arg1)))) := by
  refine (H5_after4_v14 (W4 m ρ c)).trans ?_
  rw [H5_cnt_read, H5_dst_col]
  exact H5_recip_col _

/-! ## The arguments the region reads: no host operation before it writes one -/

theorem V5_arg0 (c : Dev nD) : V5 (F := Ideal) m ρ c main_arg0 = m ((c : Thread nD τ).loc main_arg0) :=
  calc W5 (F := Ideal) m ρ c (Proc.devRef .tc main_arg0)
    _ = W4 m ρ c (Proc.devRef .tc main_arg0) := by skip_stretch hostOps0_4
    _ = W3 m ρ c (Proc.devRef .tc main_arg0) := by skip_stretch hostOps0_3
    _ = W2 m ρ c (Proc.devRef .tc main_arg0) := by skip_stretch hostOps0_2
    _ = W1 m ρ c (Proc.devRef .tc main_arg0) := by skip_stretch hostOps0_1
    _ = W0 m ρ c (Proc.devRef .tc main_arg0) := by skip_stretch hostOps0
    _ = m ((c : Thread nD τ).loc main_arg0) := rfl

theorem V5_arg2 (c : Dev nD) : V5 (F := Ideal) m ρ c main_arg2 = m ((c : Thread nD τ).loc main_arg2) :=
  calc W5 (F := Ideal) m ρ c (Proc.devRef .tc main_arg2)
    _ = W4 m ρ c (Proc.devRef .tc main_arg2) := by skip_stretch hostOps0_4
    _ = W3 m ρ c (Proc.devRef .tc main_arg2) := by skip_stretch hostOps0_3
    _ = W2 m ρ c (Proc.devRef .tc main_arg2) := by skip_stretch hostOps0_2
    _ = W1 m ρ c (Proc.devRef .tc main_arg2) := by skip_stretch hostOps0_1
    _ = W0 m ρ c (Proc.devRef .tc main_arg2) := by skip_stretch hostOps0
    _ = m ((c : Thread nD τ).loc main_arg2) := rfl

theorem V5_arg3 (c : Dev nD) : V5 (F := Ideal) m ρ c main_arg3 = m ((c : Thread nD τ).loc main_arg3) :=
  calc W5 (F := Ideal) m ρ c (Proc.devRef .tc main_arg3)
    _ = W4 m ρ c (Proc.devRef .tc main_arg3) := by skip_stretch hostOps0_4
    _ = W3 m ρ c (Proc.devRef .tc main_arg3) := by skip_stretch hostOps0_3
    _ = W2 m ρ c (Proc.devRef .tc main_arg3) := by skip_stretch hostOps0_2
    _ = W1 m ρ c (Proc.devRef .tc main_arg3) := by skip_stretch hostOps0_1
    _ = W0 m ρ c (Proc.devRef .tc main_arg3) := by skip_stretch hostOps0
    _ = m ((c : Thread nD τ).loc main_arg3) := rfl

theorem V5_arg4 (c : Dev nD) : V5 (F := Ideal) m ρ c main_arg4 = m ((c : Thread nD τ).loc main_arg4) :=
  calc W5 (F := Ideal) m ρ c (Proc.devRef .tc main_arg4)
    _ = W4 m ρ c (Proc.devRef .tc main_arg4) := by skip_stretch hostOps0_4
    _ = W3 m ρ c (Proc.devRef .tc main_arg4) := by skip_stretch hostOps0_3
    _ = W2 m ρ c (Proc.devRef .tc main_arg4) := by skip_stretch hostOps0_2
    _ = W1 m ρ c (Proc.devRef .tc main_arg4) := by skip_stretch hostOps0_1
    _ = W0 m ρ c (Proc.devRef .tc main_arg4) := by skip_stretch hostOps0
    _ = m ((c : Thread nD τ).loc main_arg4) := rfl

end Cert.KernelIdeal.KVal

end
-- ==== Proof.KernelHost7.lean ====
import proofs.«415709_j17952963297293_4_alg».proof.Proof.Gen.KernelIdeal.Frame
import proofs.«415709_j17952963297293_4_alg».proof.Proof.Spec
import proofs.«415709_j17952963297293_4_alg».proof.Proof.Edges
import proofs.«415709_j17952963297293_4_alg».proof.Proof.HostAgg
import proofs.«415709_j17952963297293_4_alg».proof.Proof.KernelHost5
import Idealize.ShloMosaic.Lib.Pipeline.Value
set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- No operation of the host stretch between the two regions writes the reciprocal counts. -/
theorem H7_W7_v14 (c : Dev nD) :
    W7 (F := Ideal) m ρ c (Proc.devRef .tc main_v14) = W6 (F := Ideal) m ρ c (Proc.devRef .tc main_v14) :=
  StableHlo.after_of_forall_not_mem (b := Proc.devRef .tc main_v14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the host stretch between the two regions writes the first layer's output. -/
theorem H7_W7_v25 (c : Dev nD) :
    W7 (F := Ideal) m ρ c (Proc.devRef .tc main_v25) = W6 (F := Ideal) m ρ c (Proc.devRef .tc main_v25) :=
  StableHlo.after_of_forall_not_mem (b := Proc.devRef .tc main_v25) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The host stretch's term for the second aggregate, over the three arrays it reads. -/
def H7_agg2T (X : Sage.Mat 100000 128) (s d : IVec S2002944 32) : Sage.Mat 100000 128 :=
  Host.scatterAdd (F := Ideal) scatter_S100000x128_S2002944x1_S2002944x128_1_0_0_1
      (broadcastInDim S100000x128 ![] Gen.bcast_S_S100000x128 (constant (F := Ideal) S_ FTy.f32 0#32))
      (broadcastInDim S2002944x1 ![0] Gen.bcast_S2002944_S2002944x1_0 d)
      (extf FTy.f32
        (truncf FTy.bf16
          (Host.gather gather_S100000x128_S2002944x1_S2002944x128_1_0_n_n_0_1_1128 X
            (broadcastInDim S2002944x1 ![0] Gen.bcast_S2002944_S2002944x1_0
              (select
                (cmpi CmpIPredicate.slt s
                  (broadcastInDim S2002944 ![] Gen.bcast_S_S2002944 (constantI S_ 32 0#32)))
                (addi s
                  (broadcastInDim S2002944 ![] Gen.bcast_S_S2002944 (constantI S_ 32 100000#32)))
                s)))
          Gen.bitsLt_bf16_f32)
        Gen.bitsLt_bf16_f32)

/-- A vector broadcast to a column, read at row `e`. -/
theorem H7_bcast_col (h : S2002944.BroadcastsInDim S2002944x1 (![0] : Fin 1 → Fin S2002944x1.rank)) (d : IVec S2002944 32)
    (e : Fin 2002944) : broadcastInDim S2002944x1 ![0] h d (ix2 e (0 : Fin 1)) = d (ix1 e) := by
  refine broadcastInDim_apply _ h d _ (ix1 e) (fun a => ?_)
  match a with
  | ⟨0, _⟩ => rfl

/-- A splat word read anywhere. -/
theorem H7_bcast_word (h : S_.BroadcastsInDim S2002944 (![] : Fin 0 → Fin S2002944.rank)) (v : BitVec 32) (i : S2002944.Idx) :
    broadcastInDim S2002944 ![] h (constantI S_ 32 v) i = v :=
  broadcastInDim_apply _ h _ i ix0 (fun a => a.elim0)

/-- The zeros the scatter accumulates into. -/
theorem H7_bcast_zero (h : S_.BroadcastsInDim S100000x128 (![] : Fin 0 → Fin S100000x128.rank)) (i : S100000x128.Idx) :
    broadcastInDim S100000x128 ![] h (constant (F := Ideal) S_ FTy.f32 0#32) i = 0 :=
  (broadcastInDim_apply _ h _ i ix0 (fun a => a.elim0)).trans Ideal.ofBits_zero_f32

theorem H7_agg2T_eq (X : Sage.Mat 100000 128) (s d : IVec S2002944 32) (ei : Edges.EI 2000000)
    (hs : ∀ e : Fin 2002944, s (ix1 e) = Edges.kSrcW ei e) (hd : ∀ e : Fin 2002944, d (ix1 e) = Edges.kDstW ei e) :
    H7_agg2T X s d = Sage.aggOf (Edges.kDst ei) (Edges.kRow ei) X := by
  unfold H7_agg2T
  refine (HostAgg.agg_rows (N := 100000) (E := 2002944) (D := 128) (by decide)
    Gen.scatter_S100000x128_S2002944x1_S2002944x128_1_0_0_1_wf Gen.gather_S100000x128_S2002944x1_S2002944x128_1_0_n_n_0_1_1128_wf
    _ (H7_bcast_zero _) X _ _).trans ?_
  congr 1
  · funext e
    rw [H7_bcast_col, hd]
    rfl
  · funext e
    rw [H7_bcast_col]
    show LibGatherScatter.clampRow 100000 _ (Scalar.select (IntOp.cmpi .slt (s (ix1 e)) (broadcastInDim S2002944 ![] Gen.bcast_S_S2002944 (constantI S_ 32 0#32) (ix1 e)))
      (IntOp.addi (s (ix1 e)) (broadcastInDim S2002944 ![] Gen.bcast_S_S2002944 (constantI S_ 32 100000#32) (ix1 e))) (s (ix1 e))) = _
    rw [H7_bcast_word, H7_bcast_word, hs]
    rfl

/-- The padded sources, the padded destinations and the first layer's output as the host stretch finds them: region 0
    wrote neither index vector, and left its output window's array at the fold of its write-backs. -/
theorem H7_W6_v4 (c : Dev nD) : W6 (F := Ideal) m ρ c (Proc.devRef .tc main_v4) = V5 (F := Ideal) m ρ c main_v4 :=
  W6_of_ne m ρ c main_v4 (by decide)
theorem H7_W6_v5 (c : Dev nD) : W6 (F := Ideal) m ρ c (Proc.devRef .tc main_v5) = V5 (F := Ideal) m ρ c main_v5 :=
  W6_of_ne m ρ c main_v5 (by decide)
theorem H7_W6_v25 (c : Dev nD) :
    W6 (F := Ideal) m ρ c (Proc.devRef .tc main_v25) = (dat0 (F := Ideal) (V5 m ρ) c).arrAt 6 cfg0.N :=
  W6_arr m ρ c 6

/-- What the host stretch leaves in the second aggregate's array: its term over the three arrays it reads, here
    against any matrix `X` that term equals. -/
theorem H7_W7_v37 (c : Dev nD) (X : (⟨S100000x128, .f32⟩ : BufTy).Contents (Elt Ideal))
    (hX : H7_agg2T ((dat0 (F := Ideal) (V5 m ρ) c).arrAt 6 cfg0.N) (V5 (F := Ideal) m ρ c main_v4) (V5 (F := Ideal) m ρ c main_v5) = X) :
    W7 (F := Ideal) m ρ c (Proc.devRef .tc main_v37) = X := by
  show StableHlo.after hostOps1 (W6 m ρ c) (Proc.devRef .tc main_v37) = _
  after_results
  rw [H7_W6_v25, H7_W6_v4, H7_W6_v5]
  exact hX

/-- The second aggregate: the rows of the first layer's output summed over the padded edge list. -/
theorem V7_agg2 (c : Dev nD) :
    V7 (F := Ideal) m ρ c main_v37
      = Sage.aggOf (Edges.kDst (m ((c : Thread nD τ).loc main_arg1))) (Edges.kRow (m ((c : Thread nD τ).loc main_arg1)))
          ((dat0 (F := Ideal) (V5 m ρ) c).arrAt 6 cfg0.N) :=
  H7_W7_v37 m ρ c _ (H7_agg2T_eq _ _ _ _ (V5_src m ρ c) (V5_dst m ρ c))

/-- Region 1 finds the reciprocal counts as region 0 did. -/
theorem V7_inv (c : Dev nD) : V7 (F := Ideal) m ρ c main_v14 = V5 (F := Ideal) m ρ c main_v14 :=
  (H7_W7_v14 m ρ c).trans ((W6_arr m ρ c 1).trans (((dat0 (V5 m ρ) c).arrAt_in 1 rfl _).trans (A_eq0 (V5 m ρ) c 1)))

/-- Region 1 finds the first layer's output as region 0 left it. -/
theorem V7_h1 (c : Dev nD) : V7 (F := Ideal) m ρ c main_v25 = (dat0 (F := Ideal) (V5 m ρ) c).arrAt 6 cfg0.N :=
  (H7_W7_v25 m ρ c).trans (W6_arr m ρ c 6)

theorem V7_arg5 (c : Dev nD) : V7 (F := Ideal) m ρ c main_arg5 = m ((c : Thread nD τ).loc main_arg5) :=
  ((W8_arr m ρ c 3).trans (((dat1 (V7 m ρ) c).arrAt_in 3 rfl _).trans (A_eq1 (V7 m ρ) c 3))).symm.trans (W8_main_arg5 m ρ c)
theorem V7_arg6 (c : Dev nD) : V7 (F := Ideal) m ρ c main_arg6 = m ((c : Thread nD τ).loc main_arg6) :=
  ((W8_arr m ρ c 4).trans (((dat1 (V7 m ρ) c).arrAt_in 4 rfl _).trans (A_eq1 (V7 m ρ) c 4))).symm.trans (W8_main_arg6 m ρ c)
theorem V7_arg7 (c : Dev nD) : V7 (F := Ideal) m ρ c main_arg7 = m ((c : Thread nD τ).loc main_arg7) :=
  ((W8_arr m ρ c 5).trans (((dat1 (V7 m ρ) c).arrAt_in 5 rfl _).trans (A_eq1 (V7 m ρ) c 5))).symm.trans (W8_main_arg7 m ρ c)
theorem V7_arg8 (c : Dev nD) : V7 (F := Ideal) m ρ c main_arg8 = m ((c : Thread nD τ).loc main_arg8) :=
  ((W8_arr m ρ c 6).trans (((dat1 (V7 m ρ) c).arrAt_in 6 rfl _).trans (A_eq1 (V7 m ρ) c 6))).symm.trans (W8_main_arg8 m ρ c)
theorem V7_arg9 (c : Dev nD) : V7 (F := Ideal) m ρ c main_arg9 = m ((c : Thread nD τ).loc main_arg9) :=
  ((W8_arr m ρ c 7).trans (((dat1 (V7 m ρ) c).arrAt_in 7 rfl _).trans (A_eq1 (V7 m ρ) c 7))).symm.trans (W8_main_arg9 m ρ c)

end Cert.KernelIdeal.KVal

end
-- ==== Proof.KernelValue.lean ====
/-
  The kernel program's result array as one function of its arguments.

  The second region's output array is the head over the second layer of what that region finds; it finds the second
  aggregate (the first layer's output summed over the padded edge list), the reciprocal counts, the first layer's
  output, and the weights.  The first region's output is the first layer of what it finds: the first aggregate, the
  reciprocal counts, `x` and the weights.  Put together this is the network over the padded edge list, multiplying
  by the reciprocal counts.
-/
import proofs.«415709_j17952963297293_4_alg».proof.Proof.Gen.KernelIdeal.Frame
import proofs.«415709_j17952963297293_4_alg».proof.Proof.Spec
import proofs.«415709_j17952963297293_4_alg».proof.Proof.Edges
import proofs.«415709_j17952963297293_4_alg».proof.Proof.Region0
import proofs.«415709_j17952963297293_4_alg».proof.Proof.Region1
import proofs.«415709_j17952963297293_4_alg».proof.Proof.KernelHost5
import proofs.«415709_j17952963297293_4_alg».proof.Proof.KernelHost7

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The result buffer after the run: the network over the padded edge list, multiplying by the reciprocal counts. -/
theorem W8_out (c : Dev nD) :
    W8 (F := Ideal) m ρ c (Proc.devRef .tc main_v38)
      = Sage.netMul (Edges.kDst (m ((c : Thread nD τ).loc main_arg1))) (Edges.kRow (m ((c : Thread nD τ).loc main_arg1)))
          (m ((c : Thread nD τ).loc main_arg0)) (m ((c : Thread nD τ).loc main_arg2)) (m ((c : Thread nD τ).loc main_arg4))
          (m ((c : Thread nD τ).loc main_arg3)) (m ((c : Thread nD τ).loc main_arg5)) (m ((c : Thread nD τ).loc main_arg7))
          (m ((c : Thread nD τ).loc main_arg6)) (m ((c : Thread nD τ).loc main_arg8)) (m ((c : Thread nD τ).loc main_arg9)) := by
  have h8 : W8 (F := Ideal) m ρ c (Proc.devRef .tc main_v38) = (dat1 (F := Ideal) (V7 m ρ) c).arrAt 8 cfg1.N :=
    W8_arr m ρ c 8
  rw [h8, region1_value (V7 m ρ) c, V7_agg2, V7_inv, V7_h1, V7_arg5, V7_arg6, V7_arg7, V7_arg8, V7_arg9,
    region0_value (V5 m ρ) c, V5_agg1, V5_inv, V5_arg0, V5_arg2, V5_arg3, V5_arg4]
  rfl

end Cert.KernelIdeal.KVal

end
-- ==== Proof.RefValue.lean ====
import proofs.«415709_j17952963297293_4_alg».proof.Proof.Gen.ReferenceIdeal.Run
import proofs.«415709_j17952963297293_4_alg».proof.Proof.Gen.ReferenceIdeal.Read
import proofs.«415709_j17952963297293_4_alg».proof.Proof.Spec
import proofs.«415709_j17952963297293_4_alg».proof.Proof.Edges
import proofs.«415709_j17952963297293_4_alg».proof.Proof.HostAgg

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- The edge array of this network: two rows of 2000000 words. -/
abbrev EIc := (⟨S2x2000000, .i32⟩ : BufTy).Contents (Elt Ideal)

/-- The source words, as a vector, are row 0 of the edge array. -/
theorem v1_at (x1 : EIc) (j : S2000000.Idx) :
    val_main_v1 (F := Ideal) x1 j = x1 (ix2 (0 : Fin 2) (j 0)) := by
  rw [val_main_v1_apply, val_main_v0_apply]
  refine congrArg x1 (funext fun a => ?_)
  match a with
  | ⟨0, _⟩ => exact Fin.ext rfl
  | ⟨1, _⟩ => exact Fin.ext (Nat.mod_eq_of_lt (j 0).isLt)

/-- The destination words, as a vector, are row 1 of the edge array. -/
theorem v3_at (x1 : EIc) (j : S2000000.Idx) :
    val_main_v3 (F := Ideal) x1 j = x1 (ix2 (1 : Fin 2) (j 0)) := by
  rw [val_main_v3_apply, val_main_v2_apply]
  refine congrArg x1 (funext fun a => ?_)
  match a with
  | ⟨0, _⟩ => exact Fin.ext rfl
  | ⟨1, _⟩ => exact Fin.ext (Nat.mod_eq_of_lt (j 0).isLt)

/-- The destination column handed to each scatter holds, at edge `e`, the destination word of `e`. -/
theorem v12_at (x1 : EIc) (e : Fin 2000000) :
    val_main_v12 (F := Ideal) x1 (ix2 e (0 : Fin 1)) = x1 (ix2 (1 : Fin 2) e) := by
  rw [val_main_v12_apply, v3_at]; rfl
theorem v16_at (x1 : EIc) (e : Fin 2000000) :
    val_main_v16 (F := Ideal) x1 (ix2 e (0 : Fin 1)) = x1 (ix2 (1 : Fin 2) e) := by
  rw [val_main_v16_apply, v3_at]; rfl
theorem v38_at (x1 : EIc) (e : Fin 2000000) :
    val_main_v38 (F := Ideal) x1 (ix2 e (0 : Fin 1)) = x1 (ix2 (1 : Fin 2) e) := by
  rw [val_main_v38_apply, v3_at]; rfl
theorem v42_at (x1 : EIc) (e : Fin 2000000) :
    val_main_v42 (F := Ideal) x1 (ix2 e (0 : Fin 1)) = x1 (ix2 (1 : Fin 2) e) := by
  rw [val_main_v42_apply, v3_at]; rfl

/-- The source column handed to the first gather holds, at edge `e`, the source word of `e` read as an index. -/
theorem v9_at (x1 : EIc) (e : Fin 2000000) :
    val_main_v9 (F := Ideal) x1 (ix2 e (0 : Fin 1)) = Edges.norm 100000#32 (x1 (ix2 (0 : Fin 2) e)) := by
  rw [val_main_v9_apply, val_main_v8_apply, val_main_v5_apply, val_main_v7_apply, val_main_v4_apply, val_main_c_apply,
    val_main_v6_apply, val_main_c_0_apply, v1_at]
  rfl

/-- The source column handed to the second gather is the same. -/
theorem v35_at (x1 : EIc) (e : Fin 2000000) :
    val_main_v35 (F := Ideal) x1 (ix2 e (0 : Fin 1)) = Edges.norm 100000#32 (x1 (ix2 (0 : Fin 2) e)) := by
  rw [val_main_v35_apply, val_main_v34_apply, val_main_v31_apply, val_main_v33_apply, val_main_v30_apply, val_main_c_4_apply,
    val_main_v32_apply, val_main_c_5_apply, v1_at]
  rfl

theorem dst12 (x1 : EIc) : (fun e : Fin 2000000 => (val_main_v12 (F := Ideal) x1 (ix2 e (0 : Fin 1))).toInt) = Edges.rDst x1 :=
  funext fun e => by rw [v12_at]; rfl
theorem dst16 (x1 : EIc) : (fun e : Fin 2000000 => (val_main_v16 (F := Ideal) x1 (ix2 e (0 : Fin 1))).toInt) = Edges.rDst x1 :=
  funext fun e => by rw [v16_at]; rfl
theorem dst38 (x1 : EIc) : (fun e : Fin 2000000 => (val_main_v38 (F := Ideal) x1 (ix2 e (0 : Fin 1))).toInt) = Edges.rDst x1 :=
  funext fun e => by rw [v38_at]; rfl
theorem dst42 (x1 : EIc) : (fun e : Fin 2000000 => (val_main_v42 (F := Ideal) x1 (ix2 e (0 : Fin 1))).toInt) = Edges.rDst x1 :=
  funext fun e => by rw [v42_at]; rfl
theorem row9 (x1 : EIc) :
    (fun e : Fin 2000000 => LibGatherScatter.clampRow 100000 (by decide) (val_main_v9 (F := Ideal) x1 (ix2 e (0 : Fin 1)))) = Edges.rRow x1 :=
  funext fun e => by rw [v9_at]; rfl
theorem row35 (x1 : EIc) :
    (fun e : Fin 2000000 => LibGatherScatter.clampRow 100000 (by decide) (val_main_v35 (F := Ideal) x1 (ix2 e (0 : Fin 1)))) = Edges.rRow x1 :=
  funext fun e => by rw [v35_at]; rfl

/-! ## The constant arrays -/

theorem v11_zero (i : S100000x6.Idx) : val_main_v11 (F := Ideal) i = (0 : EReal) := by
  rw [val_main_v11_apply, val_main_cst_apply]; exact Ideal.ofBits_zero_f32
theorem v15_zero (i : S100000.Idx) : val_main_v15 (F := Ideal) i = (0 : EReal) := by
  rw [val_main_v15_apply, val_main_cst_2_apply]; exact Ideal.ofBits_zero_f32
theorem v14_one (i : S2000000.Idx) : val_main_v14 (F := Ideal) i = (1 : EReal) := by
  rw [val_main_v14_apply, val_main_cst_1_apply]; exact Sage.ofBits_one_f32
theorem v18_one (i : S100000.Idx) : val_main_v18 (F := Ideal) i = (1 : EReal) := by
  rw [val_main_v18_apply, val_main_cst_3_apply]; exact Sage.ofBits_one_f32
theorem v37_zero (i : S100000x128.Idx) : val_main_v37 (F := Ideal) i = (0 : EReal) := by
  rw [val_main_v37_apply, val_main_cst_6_apply]; exact Ideal.ofBits_zero_f32
theorem v41_zero (i : S100000.Idx) : val_main_v41 (F := Ideal) i = (0 : EReal) := by
  rw [val_main_v41_apply, val_main_cst_8_apply]; exact Ideal.ofBits_zero_f32
theorem v40_one (i : S2000000.Idx) : val_main_v40 (F := Ideal) i = (1 : EReal) := by
  rw [val_main_v40_apply, val_main_cst_7_apply]; exact Sage.ofBits_one_f32
theorem v44_one (i : S100000.Idx) : val_main_v44 (F := Ideal) i = (1 : EReal) := by
  rw [val_main_v44_apply, val_main_cst_9_apply]; exact Sage.ofBits_one_f32
theorem call0_zero (i : S100000x128.Idx) : val_main_call0_v0 (F := Ideal) i = (0 : EReal) := by
  rw [val_main_call0_v0_apply, val_main_call0_cst_apply]; exact Ideal.ofBits_zero_f32
theorem call1_zero (i : S100000x128.Idx) : val_main_call1_v0 (F := Ideal) i = (0 : EReal) := by
  rw [val_main_call1_v0_apply, val_main_call1_cst_apply]; exact Ideal.ofBits_zero_f32

/-! ## Counts and aggregates -/

/-- The first count: ones scattered into zeros at the destinations, raised to at least one. -/
theorem cnt1 (x1 : EIc) : val_main_v19 (F := Ideal) x1 = Sage.cntOf 100000 (Edges.rDst x1) := by
  unfold val_main_v19 val_main_v17
  exact (HostAgg.cnt_vec (N := 100000) (E := 2000000) Facts₀.scatter_S100000_S2000000x1_S2000000_n_0_0_1_wf
    (val_main_v15 (F := Ideal)) v15_zero (val_main_v14 (F := Ideal)) v14_one (val_main_v18 (F := Ideal)) v18_one
    (val_main_v16 (F := Ideal) x1)).trans (by rw [dst16])

/-- The second count is the same. -/
theorem cnt2 (x1 : EIc) : val_main_v45 (F := Ideal) x1 = Sage.cntOf 100000 (Edges.rDst x1) := by
  unfold val_main_v45 val_main_v43
  exact (HostAgg.cnt_vec (N := 100000) (E := 2000000) Facts₀.scatter_S100000_S2000000x1_S2000000_n_0_0_1_wf
    (val_main_v41 (F := Ideal)) v41_zero (val_main_v40 (F := Ideal)) v40_one (val_main_v44 (F := Ideal)) v44_one
    (val_main_v42 (F := Ideal) x1)).trans (by rw [dst42])

/-- The first aggregate: the gathered source rows of the features scattered into zeros at the destinations. -/
theorem agg1 (x0 : (⟨S100000x6, .f32⟩ : BufTy).Contents (Elt Ideal)) (x1 : EIc) :
    val_main_v13 (F := Ideal) x0 x1 = Sage.aggOf (Edges.rDst x1) (Edges.rRow x1) x0 := by
  unfold val_main_v13 val_main_v10
  exact (HostAgg.agg_rows (N := 100000) (E := 2000000) (D := 6) (by decide)
    Facts₀.scatter_S100000x6_S2000000x1_S2000000x6_1_0_0_1_wf Facts₀.gather_S100000x6_S2000000x1_S2000000x6_1_0_n_n_0_1_16_wf
    (val_main_v11 (F := Ideal)) v11_zero x0 (val_main_v12 (F := Ideal) x1) (val_main_v9 (F := Ideal) x1)).trans (by rw [dst12, row9])

/-- The second aggregate: the same over the first layer's rows. -/
theorem agg2 (x0 : (⟨S100000x6, .f32⟩ : BufTy).Contents (Elt Ideal)) (x1 : EIc) (x2 : (⟨S6x128, .f32⟩ : BufTy).Contents (Elt Ideal))
    (x3 : (⟨S128, .f32⟩ : BufTy).Contents (Elt Ideal)) (x4 : (⟨S6x128, .f32⟩ : BufTy).Contents (Elt Ideal)) :
    val_main_v39 (F := Ideal) x0 x1 x2 x3 x4
      = Sage.aggOf (Edges.rDst x1) (Edges.rRow x1) (val_main_v29 (F := Ideal) x0 x1 x2 x3 x4) := by
  unfold val_main_v39 val_main_v36
  generalize val_main_v29 (F := Ideal) x0 x1 x2 x3 x4 = X
  exact (HostAgg.agg_rows (N := 100000) (E := 2000000) (D := 128) (by decide)
    Facts₀.scatter_S100000x128_S2000000x1_S2000000x128_1_0_0_1_wf Facts₀.gather_S100000x128_S2000000x1_S2000000x128_1_0_n_n_0_1_1128_wf
    (val_main_v37 (F := Ideal)) v37_zero X (val_main_v38 (F := Ideal) x1) (val_main_v35 (F := Ideal) x1)).trans (by rw [dst38, row35])

/-! ## Means -/

/-- The first mean: the aggregate divided, row by row, by the count. -/
theorem mean1 (x0 : (⟨S100000x6, .f32⟩ : BufTy).Contents (Elt Ideal)) (x1 : EIc) :
    val_main_v22 (F := Ideal) x0 x1 = Sage.meanDiv (val_main_v13 (F := Ideal) x0 x1) (val_main_v19 (F := Ideal) x1) := by
  funext i
  rw [val_main_v22_apply, val_main_v21_apply, val_main_v20_apply]
  have hi : idx_main_v20 (idx_main_v21 i) = ix1 ⟨(i 0).val, idx2_lt0 i⟩ := funext fun a => match a with | ⟨0, _⟩ => rfl
  rw [hi]
  rfl

/-- The second mean. -/
theorem mean2 (x0 : (⟨S100000x6, .f32⟩ : BufTy).Contents (Elt Ideal)) (x1 : EIc) (x2 : (⟨S6x128, .f32⟩ : BufTy).Contents (Elt Ideal))
    (x3 : (⟨S128, .f32⟩ : BufTy).Contents (Elt Ideal)) (x4 : (⟨S6x128, .f32⟩ : BufTy).Contents (Elt Ideal)) :
    val_main_v48 (F := Ideal) x0 x1 x2 x3 x4
      = Sage.meanDiv (val_main_v39 (F := Ideal) x0 x1 x2 x3 x4) (val_main_v45 (F := Ideal) x1) := by
  funext i
  rw [val_main_v48_apply, val_main_v47_apply, val_main_v46_apply]
  have hi : idx_main_v46 (idx_main_v47 i) = ix1 ⟨(i 0).val, idx2_lt0 i⟩ := funext fun a => match a with | ⟨0, _⟩ => rfl
  rw [hi]
  rfl

/-! ## Layers and head -/

/-- A layer read through any index functions that agree with the coordinates. -/
theorem layer_at {N K J : Nat} (mean root : Sage.Mat N K) (Wl Wr : Sage.Mat K J) (b : Sage.Vect J)
    (i : (⟨2, ![N, J]⟩ : Shape).Idx)
    (l1 l2 : Fin K → (⟨2, ![N, K]⟩ : Shape).Idx) (r1 r2 : Fin K → (⟨2, ![K, J]⟩ : Shape).Idx) (bi : (⟨1, ![J]⟩ : Shape).Idx)
    (hl1 : ∀ k, l1 k = ix2 ⟨(i 0).val, idx2_lt0 i⟩ k) (hl2 : ∀ k, l2 k = ix2 ⟨(i 0).val, idx2_lt0 i⟩ k)
    (hr1 : ∀ k, r1 k = ix2 k ⟨(i 1).val, idx2_lt1 i⟩) (hr2 : ∀ k, r2 k = ix2 k ⟨(i 1).val, idx2_lt1 i⟩)
    (hb : bi = ix1 ⟨(i 1).val, idx2_lt1 i⟩) :
    max (((∑ k : Fin K, mean (l1 k) * Wl (r1 k)) + b bi) + ∑ k : Fin K, root (l2 k) * Wr (r2 k)) 0
      = Sage.layer mean root Wl Wr b i := by
  obtain rfl : l1 = fun k => ix2 ⟨(i 0).val, idx2_lt0 i⟩ k := funext hl1
  obtain rfl : l2 = fun k => ix2 ⟨(i 0).val, idx2_lt0 i⟩ k := funext hl2
  obtain rfl : r1 = fun k => ix2 k ⟨(i 1).val, idx2_lt1 i⟩ := funext hr1
  obtain rfl : r2 = fun k => ix2 k ⟨(i 1).val, idx2_lt1 i⟩ := funext hr2
  subst hb
  rfl

/-- The head read through any index functions that agree with the coordinates. -/
theorem head_at {N J : Nat} (h : Sage.Mat N J) (Wlin : Sage.Mat J 1) (blin : Sage.Vect 1)
    (i : (⟨2, ![N, 1]⟩ : Shape).Idx)
    (l : Fin J → (⟨2, ![N, J]⟩ : Shape).Idx) (r : Fin J → (⟨2, ![J, 1]⟩ : Shape).Idx) (bi : (⟨1, ![1]⟩ : Shape).Idx)
    (hl : ∀ k, l k = ix2 ⟨(i 0).val, idx2_lt0 i⟩ k) (hr : ∀ k, r k = ix2 k ⟨(i 1).val, idx2_lt1 i⟩)
    (hb : bi = ix1 ⟨(i 1).val, idx2_lt1 i⟩) :
    (∑ k : Fin J, h (l k) * Wlin (r k)) + blin bi = Sage.head h Wlin blin i := by
  obtain rfl : l = fun k => ix2 ⟨(i 0).val, idx2_lt0 i⟩ k := funext hl
  obtain rfl : r = fun k => ix2 k ⟨(i 1).val, idx2_lt1 i⟩ := funext hr
  subst hb
  rfl

/-- The first layer. -/
theorem h1 (x0 : (⟨S100000x6, .f32⟩ : BufTy).Contents (Elt Ideal)) (x1 : EIc) (x2 : (⟨S6x128, .f32⟩ : BufTy).Contents (Elt Ideal))
    (x3 : (⟨S128, .f32⟩ : BufTy).Contents (Elt Ideal)) (x4 : (⟨S6x128, .f32⟩ : BufTy).Contents (Elt Ideal)) :
    val_main_v29 (F := Ideal) x0 x1 x2 x3 x4 = Sage.layer (val_main_v22 (F := Ideal) x0 x1) x0 x2 x4 x3 := by
  funext i
  rw [val_main_v29_apply, val_main_v28_apply, val_main_v26_apply, val_main_v23_apply, val_main_v27_apply, val_main_v25_apply,
    val_main_v24_apply, call0_zero]
  exact layer_at (val_main_v22 (F := Ideal) x0 x1) x0 x2 x4 x3 i (lidx_main_v23 i) (lidx_main_v27 i) (ridx_main_v23 i) (ridx_main_v27 i)
    (idx_main_v24 (idx_main_v25 i))
    (fun k => funext fun a => match a with | ⟨0, _⟩ => rfl | ⟨1, _⟩ => rfl)
    (fun k => funext fun a => match a with | ⟨0, _⟩ => rfl | ⟨1, _⟩ => rfl)
    (fun k => funext fun a => match a with | ⟨0, _⟩ => rfl | ⟨1, _⟩ => rfl)
    (fun k => funext fun a => match a with | ⟨0, _⟩ => rfl | ⟨1, _⟩ => rfl)
    (funext fun a => match a with | ⟨0, _⟩ => rfl)

/-- The second layer, over the first layer's rows. -/
theorem h2 (x0 : (⟨S100000x6, .f32⟩ : BufTy).Contents (Elt Ideal)) (x1 : EIc) (x2 : (⟨S6x128, .f32⟩ : BufTy).Contents (Elt Ideal))
    (x3 : (⟨S128, .f32⟩ : BufTy).Contents (Elt Ideal)) (x4 : (⟨S6x128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v55 (F := Ideal) x0 x1 x2 x3 x4 x5 x6 x7
      = Sage.layer (val_main_v48 (F := Ideal) x0 x1 x2 x3 x4) (val_main_v29 (F := Ideal) x0 x1 x2 x3 x4) x5 x7 x6 := by
  funext i
  rw [val_main_v55_apply, val_main_v54_apply, val_main_v52_apply, val_main_v49_apply, val_main_v53_apply, val_main_v51_apply,
    val_main_v50_apply, call1_zero]
  exact layer_at (val_main_v48 (F := Ideal) x0 x1 x2 x3 x4) (val_main_v29 (F := Ideal) x0 x1 x2 x3 x4) x5 x7 x6 i
    (lidx_main_v49 i) (lidx_main_v53 i) (ridx_main_v49 i) (ridx_main_v53 i) (idx_main_v50 (idx_main_v51 i))
    (fun k => funext fun a => match a with | ⟨0, _⟩ => rfl | ⟨1, _⟩ => rfl)
    (fun k => funext fun a => match a with | ⟨0, _⟩ => rfl | ⟨1, _⟩ => rfl)
    (fun k => funext fun a => match a with | ⟨0, _⟩ => rfl | ⟨1, _⟩ => rfl)
    (fun k => funext fun a => match a with | ⟨0, _⟩ => rfl | ⟨1, _⟩ => rfl)
    (funext fun a => match a with | ⟨0, _⟩ => rfl)

/-- The linear head over the second layer's rows. -/
theorem head_eq (x0 : (⟨S100000x6, .f32⟩ : BufTy).Contents (Elt Ideal)) (x1 : EIc) (x2 : (⟨S6x128, .f32⟩ : BufTy).Contents (Elt Ideal))
    (x3 : (⟨S128, .f32⟩ : BufTy).Contents (Elt Ideal)) (x4 : (⟨S6x128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128x1, .f32⟩ : BufTy).Contents (Elt Ideal))
    (x9 : (⟨S1, .f32⟩ : BufTy).Contents (Elt Ideal)) :
    val_main_v59 (F := Ideal) x0 x1 x2 x3 x4 x5 x6 x7 x8 x9
      = Sage.head (val_main_v55 (F := Ideal) x0 x1 x2 x3 x4 x5 x6 x7) x8 x9 := by
  funext i
  rw [val_main_v59_apply, val_main_v56_apply, val_main_v58_apply, val_main_v57_apply]
  exact head_at (val_main_v55 (F := Ideal) x0 x1 x2 x3 x4 x5 x6 x7) x8 x9 i (lidx_main_v56 i) (ridx_main_v56 i)
    (idx_main_v57 (idx_main_v58 i))
    (fun k => funext fun a => match a with | ⟨0, _⟩ => rfl | ⟨1, _⟩ => rfl)
    (fun k => funext fun a => match a with | ⟨0, _⟩ => rfl | ⟨1, _⟩ => rfl)
    (funext fun a => match a with
      | ⟨0, _⟩ => Fin.ext (by have h1 : (i 1).val < 1 := (i 1).isLt; show 0 = (i 1).val; omega))

/-- The reference's result is the network over the edge list, dividing by the counts. -/
theorem ref_value (m : (ℓ : Loc nD τ sig) → Buf (Elt Ideal) ℓ) (c : Dev nD) :
    Cert.ReferenceIdeal.Value.res_main_v59 (F := Ideal) m c
      = Sage.net (Edges.rDst (m ((c.tc : Thread nD τ).loc main_arg1))) (Edges.rRow (m ((c.tc : Thread nD τ).loc main_arg1)))
          (m ((c.tc : Thread nD τ).loc main_arg0)) (m ((c.tc : Thread nD τ).loc main_arg2)) (m ((c.tc : Thread nD τ).loc main_arg4))
          (m ((c.tc : Thread nD τ).loc main_arg3)) (m ((c.tc : Thread nD τ).loc main_arg5)) (m ((c.tc : Thread nD τ).loc main_arg7))
          (m ((c.tc : Thread nD τ).loc main_arg6)) (m ((c.tc : Thread nD τ).loc main_arg8)) (m ((c.tc : Thread nD τ).loc main_arg9)) := by
  refine (val_main_v59_eq m c).trans ?_
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  generalize m ((c.tc : Thread nD τ).loc main_arg5) = x5
  generalize m ((c.tc : Thread nD τ).loc main_arg6) = x6
  generalize m ((c.tc : Thread nD τ).loc main_arg7) = x7
  generalize m ((c.tc : Thread nD τ).loc main_arg8) = x8
  generalize m ((c.tc : Thread nD τ).loc main_arg9) = x9
  rw [head_eq, h2, mean2, agg2, cnt2, h1, mean1, agg1, cnt1]
  rfl

end Cert.ReferenceIdeal.RefValue

end
-- ==== Proof.lean ====
/-
  The certificate: a two-layer mean-aggregating graph network with a linear head.

  Both programs compute, for every node, the mean of the source rows of its incoming edges (the sum divided by the
  number of incoming edges, at least one), send it through `Wl`, add a bias and the node's own row through `Wr`, clip
  at zero, do the same again on the result, and apply a linear head.  The kernel program pads the edge list with edges
  whose destination is no node, which an accumulating scatter drops, and multiplies by the reciprocal of the count
  where the reference divides by it; the count is a real number that is at least one, so on the extended reals the
  product with its reciprocal is the quotient.  Sums over the edges are sums in a commutative monoid, so their order
  does not matter; a change of float format is the identity.  No law used needs the inputs to be finite.

  The kernel's run names its result buffer at the last boundary's contents (`GenV.run_valued`), which `KVal.W8_out`
  reads as the network over the padded list; the reference's generated run names its result at a composed term, which
  `RefValue.ref_value` reads as the network over the list; `Sage.netMul_eq_net` and `Sage.net_pad` join the two.
-/
import proofs.«415709_j17952963297293_4_alg».proof.Defs
import proofs.«415709_j17952963297293_4_alg».proof.Proof.Gen.Kernel
import proofs.«415709_j17952963297293_4_alg».proof.Proof.Gen.Kernel.Skeleton
import proofs.«415709_j17952963297293_4_alg».proof.Proof.Gen.Kernel.Launch
import proofs.«415709_j17952963297293_4_alg».proof.Proof.Gen.Kernel.Points
import proofs.«415709_j17952963297293_4_alg».proof.Proof.Gen.Kernel.Frame
import proofs.«415709_j17952963297293_4_alg».proof.Proof.Gen.KernelIdeal
import proofs.«415709_j17952963297293_4_alg».proof.Proof.Gen.KernelIdeal.Skeleton
import proofs.«415709_j17952963297293_4_alg».proof.Proof.Gen.KernelIdeal.Launch
import proofs.«415709_j17952963297293_4_alg».proof.Proof.Gen.KernelIdeal.Points
import proofs.«415709_j17952963297293_4_alg».proof.Proof.Gen.KernelIdeal.Frame
import proofs.«415709_j17952963297293_4_alg».proof.Proof.Gen.ReferenceIdeal
import proofs.«415709_j17952963297293_4_alg».proof.Proof.Gen.ReferenceIdeal.Run
import proofs.«415709_j17952963297293_4_alg».proof.Proof.Gen.Pre_finite_inputs
import proofs.«415709_j17952963297293_4_alg».proof.Proof.FrameValue
import proofs.«415709_j17952963297293_4_alg».proof.Proof.KernelValue
import proofs.«415709_j17952963297293_4_alg».proof.Proof.RefValue
import Idealize.ShloMosaic.Adequacy
import Idealize.ShloMosaic.Init

noncomputable section

namespace Cert.Proof

open Idealize.ShloMosaic Idealize.SL.Sem

/-- The reference runs, and its arguments end unchanged: its generated run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network over the edge list in their result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Sage.net (Edges.rDst (m ((c.tc : Thread Cert.KernelIdeal.nD Cert.KernelIdeal.τ).loc Cert.KernelIdeal.main_arg1)))
      (Edges.rRow (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.GenV.run_valued (F := Ideal) m ρ)
    rw [Cert.KernelIdeal.KVal.W8_out, Sage.netMul_eq_net]
    exact Sage.net_pad (by decide) _ _ _ _ (Edges.dstK_castLE _ _ _) (Edges.rowK_castLE _ _ _ _ _)
      (fun e' he' n hn => Edges.dstK_pad_ne 100000 _ Edges.toInt_nodes _ e' he' n hn) _ _ _ _ _ _ _ _ _
  · refine (θ_run Cert.ReferenceIdeal.defs _ _).mono (fun r h c => ⟨(h c).1.trans ?_, (h c).2⟩)
      (Cert.ReferenceIdeal.Value.run (F := Ideal) m' ρ')
    rw [Cert.ReferenceIdeal.RefValue.ref_value, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
